-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x64x512 : Shape := ⟨4, ![32, 64, 64, 512]⟩
abbrev S_ : Shape := ⟨0, ![]⟩

class Facts : Prop where
  bcast_S_S32x64x64x512 : S_.BroadcastsInDim S32x64x64x512 (![] : Fin 0 → Fin S32x64x64x512.rank)
  reducesTo_S32x64x64x512_S_d0_1_2_3 : S32x64x64x512.ReducesTo [0, 1, 2, 3] S_
  h_S_ : 0 < S_.numel

variable [Facts]

def fn {F : FTy → Type} [FloatOps F] (main_arg0 : FVec F S32x64x64x512 .f32) : IVec S_ 1 :=
  let main_v0 : FVec F S32x64x64x512 .f32 := Host.absf main_arg0
  let main_cst : FVec F S_ .f32 := constant S_ .f32 0x7F800000#32
  let main_v1 : FVec F S32x64x64x512 .f32 := broadcastInDim S32x64x64x512 ![] bcast_S_S32x64x64x512 main_cst
  let main_v2 : IVec S32x64x64x512 1 := cmpf .olt main_v0 main_v1
  let main_c : IVec S_ 1 := constantI S_ 1 1#1
  let main_v3 : IVec S_ 1 := (fun x v => Host.reduce IntOp.andi x v reducesTo_S32x64x64x512_S_d0_1_2_3 h_S_) main_v2 main_c
  main_v3
-- ==== Kernel.lean ====
abbrev S32x64x64x512 : Shape := ⟨4, ![32, 64, 64, 512]⟩
abbrev S32x4x4x512 : Shape := ⟨4, ![32, 4, 4, 512]⟩
abbrev S2x64x64x512 : Shape := ⟨4, ![2, 64, 64, 512]⟩
abbrev S2x4x4x512 : Shape := ⟨4, ![2, 4, 4, 512]⟩
abbrev S2x16x16x512 : Shape := ⟨4, ![2, 16, 16, 512]⟩
abbrev S2x16x512 : Shape := ⟨3, ![2, 16, 512]⟩
abbrev S2x512 : Shape := ⟨2, ![2, 512]⟩
abbrev S2x1x1x512 : Shape := ⟨4, ![2, 1, 1, 512]⟩
abbrev S_ : Shape := ⟨0, ![]⟩
abbrev S32x8192 : Shape := ⟨2, ![32, 8192]⟩
abbrev S32x2x2x2x2x512 : Shape := ⟨6, ![32, 2, 2, 2, 2, 512]⟩
abbrev S32x2x2x512 : Shape := ⟨4, ![32, 2, 2, 512]⟩
abbrev S32x2048 : Shape := ⟨2, ![32, 2048]⟩
abbrev S32x512 : Shape := ⟨2, ![32, 512]⟩
abbrev S32x10752 : Shape := ⟨2, ![32, 10752]⟩
abbrev S32x1x1x10752 : Shape := ⟨4, ![32, 1, 1, 10752]⟩

abbrev nBuf : Space → Nat
  | .hbm => 20
  | .vmem => 4
  | .smem => 0
  | _ => 0

abbrev bufTy : (tb : Table) → Fin (tcTables nBuf tb) → BufTy
  | .hbm, ⟨0, _⟩ => ⟨S32x64x64x512, .f32⟩
  | .hbm, ⟨1, _⟩ => ⟨S32x4x4x512, .f32⟩
  | .hbm, ⟨2, _⟩ => ⟨S_, .f32⟩
  | .hbm, ⟨3, _⟩ => ⟨S32x4x4x512, .f32⟩
  | .hbm, ⟨4, _⟩ => ⟨S32x4x4x512, .f32⟩
  | .hbm, ⟨5, _⟩ => ⟨S32x8192, .f32⟩
  | .hbm, ⟨6, _⟩ => ⟨S32x2x2x2x2x512, .f32⟩
  | .hbm, ⟨7, _⟩ => ⟨S_, .f32⟩
  | .hbm, ⟨8, _⟩ => ⟨S32x2x2x512, .f32⟩
  | .hbm, ⟨9, _⟩ => ⟨S_, .f32⟩
  | .hbm, ⟨10, _⟩ => ⟨S32x2x2x512, .f32⟩
  | .hbm, ⟨11, _⟩ => ⟨S32x2x2x512, .f32⟩
  | .hbm, ⟨12, _⟩ => ⟨S32x2048, .f32⟩
  | .hbm, ⟨13, _⟩ => ⟨S_, .f32⟩
  | .hbm, ⟨14, _⟩ => ⟨S32x512, .f32⟩
  | .hbm, ⟨15, _⟩ => ⟨S_, .f32⟩
  | .hbm, ⟨16, _⟩ => ⟨S32x512, .f32⟩
  | .hbm, ⟨17, _⟩ => ⟨S32x512, .f32⟩
  | .hbm, ⟨18, _⟩ => ⟨S32x10752, .f32⟩
  | .hbm, ⟨19, _⟩ => ⟨S32x1x1x10752, .f32⟩
  | .local _ .vmem, ⟨0, _⟩ => ⟨S2x64x64x512, .f32⟩
  | .local _ .vmem, ⟨1, _⟩ => ⟨S2x64x64x512, .f32⟩
  | .local _ .vmem, ⟨2, _⟩ => ⟨S2x4x4x512, .f32⟩
  | .local _ .vmem, ⟨3, _⟩ => ⟨S2x4x4x512, .f32⟩
  | _, _ => ⟨S32x64x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_cst_3 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x64x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x4x4x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S2x64x64x512_S2x16x16x512_0_0_0_0 : ∀ a, (![0, 0, 0, 0] : Fin 4 → Nat) a + S2x16x16x512.size a ≤ S2x64x64x512.size a
  h_S2x16x16x512 : 0 < S2x16x16x512.numel
  reduces_S2x16x16x512_S2x16x512 : S2x16x16x512.Reduces [1] S2x16x512
  reduces_S2x16x512_S2x512 : S2x16x512.Reduces [1] S2x512
  inb_S2x4x4x512_S2x1x1x512_0_0_0_0 : ∀ a, (![0, 0, 0, 0] : Fin 4 → Nat) a + S2x1x1x512.size a ≤ S2x4x4x512.size a
  h_S2x1x1x512 : 0 < S2x1x1x512.numel
  shapeCasts_S2x1x1x512_S2x512 : S2x1x1x512.ShapeCasts S2x512
  shapeCasts_S2x512_S2x1x1x512 : S2x512.ShapeCasts S2x1x1x512
  inb_S2x64x64x512_S2x16x16x512_0_0_16_0 : ∀ a, (![0, 0, 16, 0] : Fin 4 → Nat) a + S2x16x16x512.size a ≤ S2x64x64x512.size a
  inb_S2x4x4x512_S2x1x1x512_0_0_1_0 : ∀ a, (![0, 0, 1, 0] : Fin 4 → Nat) a + S2x1x1x512.size a ≤ S2x4x4x512.size a
  inb_S2x64x64x512_S2x16x16x512_0_0_32_0 : ∀ a, (![0, 0, 32, 0] : Fin 4 → Nat) a + S2x16x16x512.size a ≤ S2x64x64x512.size a
  inb_S2x4x4x512_S2x1x1x512_0_0_2_0 : ∀ a, (![0, 0, 2, 0] : Fin 4 → Nat) a + S2x1x1x512.size a ≤ S2x4x4x512.size a
  inb_S2x64x64x512_S2x16x16x512_0_0_48_0 : ∀ a, (![0, 0, 48, 0] : Fin 4 → Nat) a + S2x16x16x512.size a ≤ S2x64x64x512.size a
  inb_S2x4x4x512_S2x1x1x512_0_0_3_0 : ∀ a, (![0, 0, 3, 0] : Fin 4 → Nat) a + S2x1x1x512.size a ≤ S2x4x4x512.size a
  inb_S2x64x64x512_S2x16x16x512_0_16_0_0 : ∀ a, (![0, 16, 0, 0] : Fin 4 → Nat) a + S2x16x16x512.size a ≤ S2x64x64x512.size a
  inb_S2x4x4x512_S2x1x1x512_0_1_0_0 : ∀ a, (![0, 1, 0, 0] : Fin 4 → Nat) a + S2x1x1x512.size a ≤ S2x4x4x512.size a
  inb_S2x64x64x512_S2x16x16x512_0_16_16_0 : ∀ a, (![0, 16, 16, 0] : Fin 4 → Nat) a + S2x16x16x512.size a ≤ S2x64x64x512.size a
  inb_S2x4x4x512_S2x1x1x512_0_1_1_0 : ∀ a, (![0, 1, 1, 0] : Fin 4 → Nat) a + S2x1x1x512.size a ≤ S2x4x4x512.size a
  inb_S2x64x64x512_S2x16x16x512_0_16_32_0 : ∀ a, (![0, 16, 32, 0] : Fin 4 → Nat) a + S2x16x16x512.size a ≤ S2x64x64x512.size a
  inb_S2x4x4x512_S2x1x1x512_0_1_2_0 : ∀ a, (![0, 1, 2, 0] : Fin 4 → Nat) a + S2x1x1x512.size a ≤ S2x4x4x512.size a
  inb_S2x64x64x512_S2x16x16x512_0_16_48_0 : ∀ a, (![0, 16, 48, 0] : Fin 4 → Nat) a + S2x16x16x512.size a ≤ S2x64x64x512.size a
  inb_S2x4x4x512_S2x1x1x512_0_1_3_0 : ∀ a, (![0, 1, 3, 0] : Fin 4 → Nat) a + S2x1x1x512.size a ≤ S2x4x4x512.size a
  inb_S2x64x64x512_S2x16x16x512_0_32_0_0 : ∀ a, (![0, 32, 0, 0] : Fin 4 → Nat) a + S2x16x16x512.size a ≤ S2x64x64x512.size a
  inb_S2x4x4x512_S2x1x1x512_0_2_0_0 : ∀ a, (![0, 2, 0, 0] : Fin 4 → Nat) a + S2x1x1x512.size a ≤ S2x4x4x512.size a
  inb_S2x64x64x512_S2x16x16x512_0_32_16_0 : ∀ a, (![0, 32, 16, 0] : Fin 4 → Nat) a + S2x16x16x512.size a ≤ S2x64x64x512.size a
  inb_S2x4x4x512_S2x1x1x512_0_2_1_0 : ∀ a, (![0, 2, 1, 0] : Fin 4 → Nat) a + S2x1x1x512.size a ≤ S2x4x4x512.size a
  inb_S2x64x64x512_S2x16x16x512_0_32_32_0 : ∀ a, (![0, 32, 32, 0] : Fin 4 → Nat) a + S2x16x16x512.size a ≤ S2x64x64x512.size a
  inb_S2x4x4x512_S2x1x1x512_0_2_2_0 : ∀ a, (![0, 2, 2, 0] : Fin 4 → Nat) a + S2x1x1x512.size a ≤ S2x4x4x512.size a
  inb_S2x64x64x512_S2x16x16x512_0_32_48_0 : ∀ a, (![0, 32, 48, 0] : Fin 4 → Nat) a + S2x16x16x512.size a ≤ S2x64x64x512.size a
  inb_S2x4x4x512_S2x1x1x512_0_2_3_0 : ∀ a, (![0, 2, 3, 0] : Fin 4 → Nat) a + S2x1x1x512.size a ≤ S2x4x4x512.size a
  inb_S2x64x64x512_S2x16x16x512_0_48_0_0 : ∀ a, (![0, 48, 0, 0] : Fin 4 → Nat) a + S2x16x16x512.size a ≤ S2x64x64x512.size a
  inb_S2x4x4x512_S2x1x1x512_0_3_0_0 : ∀ a, (![0, 3, 0, 0] : Fin 4 → Nat) a + S2x1x1x512.size a ≤ S2x4x4x512.size a
  inb_S2x64x64x512_S2x16x16x512_0_48_16_0 : ∀ a, (![0, 48, 16, 0] : Fin 4 → Nat) a + S2x16x16x512.size a ≤ S2x64x64x512.size a
  inb_S2x4x4x512_S2x1x1x512_0_3_1_0 : ∀ a, (![0, 3, 1, 0] : Fin 4 → Nat) a + S2x1x1x512.size a ≤ S2x4x4x512.size a
  inb_S2x64x64x512_S2x16x16x512_0_48_32_0 : ∀ a, (![0, 48, 32, 0] : Fin 4 → Nat) a + S2x16x16x512.size a ≤ S2x64x64x512.size a
  inb_S2x4x4x512_S2x1x1x512_0_3_2_0 : ∀ a, (![0, 3, 2, 0] : Fin 4 → Nat) a + S2x1x1x512.size a ≤ S2x4x4x512.size a
  inb_S2x64x64x512_S2x16x16x512_0_48_48_0 : ∀ a, (![0, 48, 48, 0] : Fin 4 → Nat) a + S2x16x16x512.size a ≤ S2x64x64x512.size a
  inb_S2x4x4x512_S2x1x1x512_0_3_3_0 : ∀ a, (![0, 3, 3, 0] : Fin 4 → Nat) a + S2x1x1x512.size a ≤ S2x4x4x512.size a
  bcast_S_S32x4x4x512 : S_.BroadcastsInDim S32x4x4x512 (![] : Fin 0 → Fin S32x4x4x512.rank)
  shapeCasts_S32x4x4x512_S32x8192 : S32x4x4x512.ShapeCasts S32x8192
  shapeCasts_S32x4x4x512_S32x2x2x2x2x512 : S32x4x4x512.ShapeCasts S32x2x2x2x2x512
  reducesTo_S32x2x2x2x2x512_S32x2x2x512_d2_4 : S32x2x2x2x2x512.ReducesTo [2, 4] S32x2x2x512
  h_S_ : 0 < S_.numel
  bcast_S_S32x2x2x512 : S_.BroadcastsInDim S32x2x2x512 (![] : Fin 0 → Fin S32x2x2x512.rank)
  shapeCasts_S32x2x2x512_S32x2048 : S32x2x2x512.ShapeCasts S32x2048
  reducesTo_S32x4x4x512_S32x512_d1_2 : S32x4x4x512.ReducesTo [1, 2] S32x512
  bcast_S_S32x512 : S_.BroadcastsInDim S32x512 (![] : Fin 0 → Fin S32x512.rank)
  concatenates_S32x512_S32x2048_S32x8192_S32x10752_d1 : Shape.Concatenates [S32x512, S32x2048, S32x8192] S32x10752 1
  bcast_S32x10752_S32x1x1x10752_0_3 : S32x10752.BroadcastsInDim S32x1x1x10752 (![0, 3] : Fin 2 → Fin S32x1x1x10752.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x64x64x512.size a ≤ S32x64x64x512.size a
  hwx0_0 : ∀ i : grid0.Coords, EltTy.bits .f32 = 32 ∨ (Rect.block (s := S32x64x64x512) S2x64x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x4x4x512.size a ≤ S32x4x4x512.size a
  hwx0_1 : ∀ i : grid0.Coords, EltTy.bits .f32 = 32 ∨ (Rect.block (s := S32x4x4x512) S2x4x4x512.size (cc0_transform_1 i) (hinb0_1 i)).WholeWords (EltTy.packing .f32)

variable [Facts₀]

abbrev win0_0 : Pipeline.Window sig grid0 :=
  Pipeline.Window.ofSpec (Memref.whole main_arg0) S2x64x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2x4x4x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x64x64x512 : Shape := ⟨4, ![32, 64, 64, 512]⟩
abbrev S32x1x64x1x64x512 : Shape := ⟨6, ![32, 1, 64, 1, 64, 512]⟩
abbrev S_ : Shape := ⟨0, ![]⟩
abbrev S32x1x1x512 : Shape := ⟨4, ![32, 1, 1, 512]⟩
abbrev S32x512 : Shape := ⟨2, ![32, 512]⟩
abbrev S32x2x32x2x32x512 : Shape := ⟨6, ![32, 2, 32, 2, 32, 512]⟩
abbrev S32x2x2x512 : Shape := ⟨4, ![32, 2, 2, 512]⟩
abbrev S32x2048 : Shape := ⟨2, ![32, 2048]⟩
abbrev S32x4x16x4x16x512 : Shape := ⟨6, ![32, 4, 16, 4, 16, 512]⟩
abbrev S32x4x4x512 : Shape := ⟨4, ![32, 4, 4, 512]⟩
abbrev S32x8192 : Shape := ⟨2, ![32, 8192]⟩
abbrev S32x10752 : Shape := ⟨2, ![32, 10752]⟩
abbrev S32x1x1x10752 : Shape := ⟨4, ![32, 1, 1, 10752]⟩

abbrev nBuf : Space → Nat
  | .hbm => 24
  | .vmem => 0
  | .smem => 0
  | _ => 0

abbrev bufTy : (tb : Table) → Fin (tcTables nBuf tb) → BufTy
  | .hbm, ⟨0, _⟩ => ⟨S32x64x64x512, .f32⟩
  | .hbm, ⟨1, _⟩ => ⟨S32x1x64x1x64x512, .f32⟩
  | .hbm, ⟨2, _⟩ => ⟨S_, .f32⟩
  | .hbm, ⟨3, _⟩ => ⟨S32x1x1x512, .f32⟩
  | .hbm, ⟨4, _⟩ => ⟨S_, .f32⟩
  | .hbm, ⟨5, _⟩ => ⟨S32x1x1x512, .f32⟩
  | .hbm, ⟨6, _⟩ => ⟨S32x1x1x512, .f32⟩
  | .hbm, ⟨7, _⟩ => ⟨S32x512, .f32⟩
  | .hbm, ⟨8, _⟩ => ⟨S32x2x32x2x32x512, .f32⟩
  | .hbm, ⟨9, _⟩ => ⟨S_, .f32⟩
  | .hbm, ⟨10, _⟩ => ⟨S32x2x2x512, .f32⟩
  | .hbm, ⟨11, _⟩ => ⟨S_, .f32⟩
  | .hbm, ⟨12, _⟩ => ⟨S32x2x2x512, .f32⟩
  | .hbm, ⟨13, _⟩ => ⟨S32x2x2x512, .f32⟩
  | .hbm, ⟨14, _⟩ => ⟨S32x2048, .f32⟩
  | .hbm, ⟨15, _⟩ => ⟨S32x4x16x4x16x512, .f32⟩
  | .hbm, ⟨16, _⟩ => ⟨S_, .f32⟩
  | .hbm, ⟨17, _⟩ => ⟨S32x4x4x512, .f32⟩
  | .hbm, ⟨18, _⟩ => ⟨S_, .f32⟩
  | .hbm, ⟨19, _⟩ => ⟨S32x4x4x512, .f32⟩
  | .hbm, ⟨20, _⟩ => ⟨S32x4x4x512, .f32⟩
  | .hbm, ⟨21, _⟩ => ⟨S32x8192, .f32⟩
  | .hbm, ⟨22, _⟩ => ⟨S32x10752, .f32⟩
  | .hbm, ⟨23, _⟩ => ⟨S32x1x1x10752, .f32⟩
  | _, _ => ⟨S32x64x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_3 : Ref sig .tc := ⟨.hbm, 16, rfl⟩
abbrev main_v11 : Ref sig .tc := ⟨.hbm, 17, rfl⟩
abbrev main_cst_4 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  shapeCasts_S32x64x64x512_S32x1x64x1x64x512 : S32x64x64x512.ShapeCasts S32x1x64x1x64x512
  reducesTo_S32x1x64x1x64x512_S32x1x1x512_d2_4 : S32x1x64x1x64x512.ReducesTo [2, 4] S32x1x1x512
  h_S_ : 0 < S_.numel
  bcast_S_S32x1x1x512 : S_.BroadcastsInDim S32x1x1x512 (![] : Fin 0 → Fin S32x1x1x512.rank)
  shapeCasts_S32x1x1x512_S32x512 : S32x1x1x512.ShapeCasts S32x512
  shapeCasts_S32x64x64x512_S32x2x32x2x32x512 : S32x64x64x512.ShapeCasts S32x2x32x2x32x512
  reducesTo_S32x2x32x2x32x512_S32x2x2x512_d2_4 : S32x2x32x2x32x512.ReducesTo [2, 4] S32x2x2x512
  bcast_S_S32x2x2x512 : S_.BroadcastsInDim S32x2x2x512 (![] : Fin 0 → Fin S32x2x2x512.rank)
  shapeCasts_S32x2x2x512_S32x2048 : S32x2x2x512.ShapeCasts S32x2048
  shapeCasts_S32x64x64x512_S32x4x16x4x16x512 : S32x64x64x512.ShapeCasts S32x4x16x4x16x512
  reducesTo_S32x4x16x4x16x512_S32x4x4x512_d2_4 : S32x4x16x4x16x512.ReducesTo [2, 4] S32x4x4x512
  bcast_S_S32x4x4x512 : S_.BroadcastsInDim S32x4x4x512 (![] : Fin 0 → Fin S32x4x4x512.rank)
  shapeCasts_S32x4x4x512_S32x8192 : S32x4x4x512.ShapeCasts S32x8192
  concatenates_S32x512_S32x2048_S32x8192_S32x10752_d1 : Shape.Concatenates [S32x512, S32x2048, S32x8192] S32x10752 1
  bcast_S32x10752_S32x1x1x10752_0_3 : S32x10752.BroadcastsInDim S32x1x1x10752 (![0, 3] : Fin 2 → Fin S32x1x1x10752.rank)

variable [Facts₀]

class Facts : Prop extends Facts₀ where

variable [Facts]
-- ==== Proof.KernelSlabRects.lean ====
/- The kernel body's access rectangles: for i, j < 4 the [2,16,16,512] slab of the input block at rows 16i.., columns 16j..,
   and the [2,1,1,512] slab of the output block at (i, j). -/
import proofs.«122178_j50457275793429_1_alg».proof.Proof.Gen.Kernel

noncomputable section

namespace Cert.Kernel.Slab

open Idealize.ShloMosaic Cert.Kernel

abbrev srcR00 : Rect S2x64x64x512 := Rect.unit (s := S2x64x64x512) ![0, 0, 0, 0] S2x16x16x512.size Gen.inb_S2x64x64x512_S2x16x16x512_0_0_0_0
abbrev srcR01 : Rect S2x64x64x512 := Rect.unit (s := S2x64x64x512) ![0, 0, 16, 0] S2x16x16x512.size Gen.inb_S2x64x64x512_S2x16x16x512_0_0_16_0
abbrev srcR02 : Rect S2x64x64x512 := Rect.unit (s := S2x64x64x512) ![0, 0, 32, 0] S2x16x16x512.size Gen.inb_S2x64x64x512_S2x16x16x512_0_0_32_0
abbrev srcR03 : Rect S2x64x64x512 := Rect.unit (s := S2x64x64x512) ![0, 0, 48, 0] S2x16x16x512.size Gen.inb_S2x64x64x512_S2x16x16x512_0_0_48_0
abbrev srcR10 : Rect S2x64x64x512 := Rect.unit (s := S2x64x64x512) ![0, 16, 0, 0] S2x16x16x512.size Gen.inb_S2x64x64x512_S2x16x16x512_0_16_0_0
abbrev srcR11 : Rect S2x64x64x512 := Rect.unit (s := S2x64x64x512) ![0, 16, 16, 0] S2x16x16x512.size Gen.inb_S2x64x64x512_S2x16x16x512_0_16_16_0
abbrev srcR12 : Rect S2x64x64x512 := Rect.unit (s := S2x64x64x512) ![0, 16, 32, 0] S2x16x16x512.size Gen.inb_S2x64x64x512_S2x16x16x512_0_16_32_0
abbrev srcR13 : Rect S2x64x64x512 := Rect.unit (s := S2x64x64x512) ![0, 16, 48, 0] S2x16x16x512.size Gen.inb_S2x64x64x512_S2x16x16x512_0_16_48_0
abbrev srcR20 : Rect S2x64x64x512 := Rect.unit (s := S2x64x64x512) ![0, 32, 0, 0] S2x16x16x512.size Gen.inb_S2x64x64x512_S2x16x16x512_0_32_0_0
abbrev srcR21 : Rect S2x64x64x512 := Rect.unit (s := S2x64x64x512) ![0, 32, 16, 0] S2x16x16x512.size Gen.inb_S2x64x64x512_S2x16x16x512_0_32_16_0
abbrev srcR22 : Rect S2x64x64x512 := Rect.unit (s := S2x64x64x512) ![0, 32, 32, 0] S2x16x16x512.size Gen.inb_S2x64x64x512_S2x16x16x512_0_32_32_0
abbrev srcR23 : Rect S2x64x64x512 := Rect.unit (s := S2x64x64x512) ![0, 32, 48, 0] S2x16x16x512.size Gen.inb_S2x64x64x512_S2x16x16x512_0_32_48_0
abbrev srcR30 : Rect S2x64x64x512 := Rect.unit (s := S2x64x64x512) ![0, 48, 0, 0] S2x16x16x512.size Gen.inb_S2x64x64x512_S2x16x16x512_0_48_0_0
abbrev srcR31 : Rect S2x64x64x512 := Rect.unit (s := S2x64x64x512) ![0, 48, 16, 0] S2x16x16x512.size Gen.inb_S2x64x64x512_S2x16x16x512_0_48_16_0
abbrev srcR32 : Rect S2x64x64x512 := Rect.unit (s := S2x64x64x512) ![0, 48, 32, 0] S2x16x16x512.size Gen.inb_S2x64x64x512_S2x16x16x512_0_48_32_0
abbrev srcR33 : Rect S2x64x64x512 := Rect.unit (s := S2x64x64x512) ![0, 48, 48, 0] S2x16x16x512.size Gen.inb_S2x64x64x512_S2x16x16x512_0_48_48_0

abbrev dstR00 : Rect S2x4x4x512 := Rect.unit (s := S2x4x4x512) ![0, 0, 0, 0] S2x1x1x512.size Gen.inb_S2x4x4x512_S2x1x1x512_0_0_0_0
abbrev dstR01 : Rect S2x4x4x512 := Rect.unit (s := S2x4x4x512) ![0, 0, 1, 0] S2x1x1x512.size Gen.inb_S2x4x4x512_S2x1x1x512_0_0_1_0
abbrev dstR02 : Rect S2x4x4x512 := Rect.unit (s := S2x4x4x512) ![0, 0, 2, 0] S2x1x1x512.size Gen.inb_S2x4x4x512_S2x1x1x512_0_0_2_0
abbrev dstR03 : Rect S2x4x4x512 := Rect.unit (s := S2x4x4x512) ![0, 0, 3, 0] S2x1x1x512.size Gen.inb_S2x4x4x512_S2x1x1x512_0_0_3_0
abbrev dstR10 : Rect S2x4x4x512 := Rect.unit (s := S2x4x4x512) ![0, 1, 0, 0] S2x1x1x512.size Gen.inb_S2x4x4x512_S2x1x1x512_0_1_0_0
abbrev dstR11 : Rect S2x4x4x512 := Rect.unit (s := S2x4x4x512) ![0, 1, 1, 0] S2x1x1x512.size Gen.inb_S2x4x4x512_S2x1x1x512_0_1_1_0
abbrev dstR12 : Rect S2x4x4x512 := Rect.unit (s := S2x4x4x512) ![0, 1, 2, 0] S2x1x1x512.size Gen.inb_S2x4x4x512_S2x1x1x512_0_1_2_0
abbrev dstR13 : Rect S2x4x4x512 := Rect.unit (s := S2x4x4x512) ![0, 1, 3, 0] S2x1x1x512.size Gen.inb_S2x4x4x512_S2x1x1x512_0_1_3_0
abbrev dstR20 : Rect S2x4x4x512 := Rect.unit (s := S2x4x4x512) ![0, 2, 0, 0] S2x1x1x512.size Gen.inb_S2x4x4x512_S2x1x1x512_0_2_0_0
abbrev dstR21 : Rect S2x4x4x512 := Rect.unit (s := S2x4x4x512) ![0, 2, 1, 0] S2x1x1x512.size Gen.inb_S2x4x4x512_S2x1x1x512_0_2_1_0
abbrev dstR22 : Rect S2x4x4x512 := Rect.unit (s := S2x4x4x512) ![0, 2, 2, 0] S2x1x1x512.size Gen.inb_S2x4x4x512_S2x1x1x512_0_2_2_0
abbrev dstR23 : Rect S2x4x4x512 := Rect.unit (s := S2x4x4x512) ![0, 2, 3, 0] S2x1x1x512.size Gen.inb_S2x4x4x512_S2x1x1x512_0_2_3_0
abbrev dstR30 : Rect S2x4x4x512 := Rect.unit (s := S2x4x4x512) ![0, 3, 0, 0] S2x1x1x512.size Gen.inb_S2x4x4x512_S2x1x1x512_0_3_0_0
abbrev dstR31 : Rect S2x4x4x512 := Rect.unit (s := S2x4x4x512) ![0, 3, 1, 0] S2x1x1x512.size Gen.inb_S2x4x4x512_S2x1x1x512_0_3_1_0
abbrev dstR32 : Rect S2x4x4x512 := Rect.unit (s := S2x4x4x512) ![0, 3, 2, 0] S2x1x1x512.size Gen.inb_S2x4x4x512_S2x1x1x512_0_3_2_0
abbrev dstR33 : Rect S2x4x4x512 := Rect.unit (s := S2x4x4x512) ![0, 3, 3, 0] S2x1x1x512.size Gen.inb_S2x4x4x512_S2x1x1x512_0_3_3_0

end Cert.Kernel.Slab

end
-- ==== Proof.KernelFrame.lean ====
/-
  The frame of the kernel program, read at any float instance (the word-level one and the exact one alike): every
  weakly fair run of @main ends, faults nowhere, and leaves the argument array as launched.

  @main is ONE pipelined call on a grid of 16 points followed by 18 host operations (three quotients by a constant,
  two sums over pairs of axes, reshapes, a concatenation along the feature axis, a broadcast). At point t the
  pipeline hands the body rows [2t, 2t+2) of the [32,64,64,512] argument and takes back rows [2t, 2t+2) of the
  [32,4,4,512] array of block sums. The body makes sixteen stores, one per (i, j) with i, j < 4: the [2,1,1,512]
  slab at (i, j) receives the input slab at rows 16i.., columns 16j.. summed over its 16 rows and then over its 16
  columns. Before each store it also loads the slab it is about to overwrite and discards the value. The sixteen
  slabs tile the output block, so what the block holds after the body is one function of the input block: the
  overlay of the sixteen stored values ('outBlock'), whatever the block held before.

  The host operations after the call touch neither window's array except to read the block sums, and none writes
  the argument, which is therefore found at the end as it was launched.
-/
import proofs.«122178_j50457275793429_1_alg».proof.Proof.Gen.Kernel.Launch
import proofs.«122178_j50457275793429_1_alg».proof.Proof.Gen.Kernel.Skeleton
import proofs.«122178_j50457275793429_1_alg».proof.Proof.Gen.Kernel.Points
import proofs.«122178_j50457275793429_1_alg».proof.Proof.KernelSlabRects
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Slab

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the call -/

/-- Core c's buffers when the call is entered: no host operation comes before it, so they are the launch contents. -/
abbrev V0 (c : Dev nD) : Valuation τ sig (Elt F) :=
  StableHlo.after (List.flatten ([] : List (List (HloOp τ sig (Elt F))))) (fun b => m (c, b))
/-- The same, read at a TensorCore reference. -/
abbrev V (c : Dev nD) (b : Ref sig .tc) : Buf (Elt F) ((c : Thread nD τ).loc b) := V0 m c (Proc.devRef .tc b)

/-- None of the eighteen host operations allocates. -/
theorem tailOps_fresh : (hostOps1 : List (HloOp τ sig (Elt F))).Forall fun op => op.fresh = ∅ := by
  simp only [List.Forall]; repeat' constructor

/-- @main is the call continued by the host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall]) (by simp only [List.Forall]) main_chain

/-- The host operations touch only unscoped TensorCore buffers: the two arrays of the call and buffers the call
    does not use. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp tailOps_fresh) op hop

/-- Each host operation writes its own result buffer, and none of those is the argument or the block-sum array. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.reshape_writes, StableHlo.nary_writes, Finset.mem_singleton] <;> exact StableHlo.devRef_ne_of_ne (by decide)

/-- The call finds the argument as launched. -/
theorem V_arg (c : Dev nD) : V m c main_arg0 = m ((c : Thread nD τ).loc main_arg0) := rfl

/-- After the host operations the argument is still as launched: none of them writes it. -/
theorem tail_arg (dats : (p : Fin _) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (Pipeline.afterTail₀ cfgs dats 0 (V0 m) [hostOps1]) r) :
    r.2.mem ((c.tc : Thread nD τ).loc main_arg0) = m ((c.tc : Thread nD τ).loc main_arg0) :=
  ((h c).1 0).trans (((dats 0 c).arrAt_in 0 rfl _).trans ((hA c 0).trans (V_arg m c)))

/-! ## The blocks -/

/-- Window w's block at point t, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input's staging buffer holds its block at every point, for any proof data over these arrays whose body
    leaves the block in place. -/
theorem before_in_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output block -/

/-- The output block after the body, from the input block x0: the sixteen stores overlaid, the last first. Slab
    (i, j) holds the input slab (i, j) summed over its rows, then over its columns; for (0,3) and (2,2) the program
    carries the row sums across a cut in its text, which changes nothing. -/
def outBlock (x0 : Vec F S2x64x64x512 .f32) : Vec F S2x4x4x512 .f32 :=
  View.canon [⟨dstR33, k0_pay2 (View.ld x0 srcR33)⟩, ⟨dstR32, k0_pay1 (View.ld x0 srcR32)⟩,
    ⟨dstR31, k0_pay18 (View.ld x0 srcR31)⟩, ⟨dstR30, k0_pay17 (View.ld x0 srcR30)⟩,
    ⟨dstR23, k0_pay16 (View.ld x0 srcR23)⟩, ⟨dstR22, k0_pay15 (k0_pay14 (View.ld x0 srcR22))⟩,
    ⟨dstR21, k0_pay13 (View.ld x0 srcR21)⟩, ⟨dstR20, k0_pay12 (View.ld x0 srcR20)⟩,
    ⟨dstR13, k0_pay11 (View.ld x0 srcR13)⟩, ⟨dstR12, k0_pay10 (View.ld x0 srcR12)⟩,
    ⟨dstR11, k0_pay9 (View.ld x0 srcR11)⟩, ⟨dstR10, k0_pay8 (View.ld x0 srcR10)⟩,
    ⟨dstR03, k0_pay7 (k0_pay6 (View.ld x0 srcR03))⟩, ⟨dstR02, k0_pay5 (View.ld x0 srcR02)⟩,
    ⟨dstR01, k0_pay4 (View.ld x0 srcR01)⟩, ⟨dstR00, k0_pay3 (View.ld x0 srcR00)⟩]

/-- The sixteen slabs tile the block. -/
theorem outBlock_cover (p00 p01 p02 p03 p10 p11 p12 p13 p20 p21 p22 p23 p30 p31 p32 p33 : Vec F S2x1x1x512 .f32) (y : S2x4x4x512.Idx) :
    ∃ pc ∈ ([⟨dstR33, p33⟩, ⟨dstR32, p32⟩, ⟨dstR31, p31⟩, ⟨dstR30, p30⟩, ⟨dstR23, p23⟩, ⟨dstR22, p22⟩, ⟨dstR21, p21⟩, ⟨dstR20, p20⟩,
      ⟨dstR13, p13⟩, ⟨dstR12, p12⟩, ⟨dstR11, p11⟩, ⟨dstR10, p10⟩, ⟨dstR03, p03⟩, ⟨dstR02, p02⟩, ⟨dstR01, p01⟩, ⟨dstR00, p00⟩] : List (View.Piece (Elt F) S2x4x4x512 .f32)), y ∈ pc.1.set :=
  View.cover_of_tiled (s := S2x4x4x512) _ (S2x1x1x512.size : Fin S2x4x4x512.rank → ℕ) (by rfl) y

/-! ## The body's triple -/

set_option maxHeartbeats 4000000 in
/-- On whole staging buffers, the input's at x0 and the output's at anything, the body runs to a state with the
    input's buffer unchanged and the output's at 'outBlock x0'. -/
theorem sound_kernel (c : Dev nD) (E : Set ℕ) (i : grid0.Coords) (arg1 : Memref sig .tc .vmem S2x64x64x512 .f32) (harg1 : arg1.IsWhole)
    (arg2 : Memref sig .tc .vmem S2x4x4x512 .f32) (harg2 : arg2.IsWhole) (x0 : Vec F S2x64x64x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (outBlock x0)) -∗ K ⟨⟩))
      ⊢ wp frame (wpE (defs₀ (F := F)) Variants.none c none) E (cc0_block_sum_kernel i arg1 harg1 arg2 harg2) K := by
  simp only [cc0_block_sum_kernel_eq_skeleton]; unfold cc0_block_sum_kernel_skel
  simp only [k0_part1_eq_skeleton, k0_part2_eq_skeleton, k0_part3_eq_skeleton, k0_part4_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (outBlock_cover _ _ _ _ _ _ _ _ _ _ _ _ _ _ _ _)

/-! ## The proof data -/

/-- The pipeline's proof data on core c: the arrays as the call finds them; after the body at point t the input's
    buffer at its block and the output's at 'outBlock' of that block; the invariant is the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outBlock (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in (c : Dev nD) (t : Fin cfg0.N) : (dats m 0 c).after 0 t = iblk m c 0 t := by dsimp only [dats]
theorem after_out (c : Dev nD) (t : Fin cfg0.N) : (dats m 0 c).after 1 t = outBlock (iblk m c 0 t) := by dsimp only [dats]

theorem before_in (c : Dev nD) (t : Fin cfg0.N) (d) : (dats m 0 c).before 0 t d = iblk m c 0 t :=
  before_in_of m (dats m 0 c) (A_eq m c 0) (after_in m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's buffer holds its block, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).Φ t.succ = (dats m 0 c).Φ t.castSucc from rfl,
    show (dats m 0 c).owesAt () t.succ = (dats m 0 c).owesAt () t.castSucc from rfl,
    after_in, after_out]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair run of @main ends with the block-sum array at what the proof data computes, and every other
    unscoped buffer as the host operations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The frame: the argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => tail_arg m (dats m) (A_eq m) c r h) (run_main m ρ)

end Cert.Kernel.Fr

end
-- ==== Proof.KernelIdealSlabRects.lean ====
/- The kernel body's access rectangles: for i, j < 4 the [2,16,16,512] slab of the input block at rows 16i.., columns 16j..,
   and the [2,1,1,512] slab of the output block at (i, j). -/
import proofs.«122178_j50457275793429_1_alg».proof.Proof.Gen.KernelIdeal

noncomputable section

namespace Cert.KernelIdeal.Slab

open Idealize.ShloMosaic Cert.KernelIdeal

abbrev srcR00 : Rect S2x64x64x512 := Rect.unit (s := S2x64x64x512) ![0, 0, 0, 0] S2x16x16x512.size Gen.inb_S2x64x64x512_S2x16x16x512_0_0_0_0
abbrev srcR01 : Rect S2x64x64x512 := Rect.unit (s := S2x64x64x512) ![0, 0, 16, 0] S2x16x16x512.size Gen.inb_S2x64x64x512_S2x16x16x512_0_0_16_0
abbrev srcR02 : Rect S2x64x64x512 := Rect.unit (s := S2x64x64x512) ![0, 0, 32, 0] S2x16x16x512.size Gen.inb_S2x64x64x512_S2x16x16x512_0_0_32_0
abbrev srcR03 : Rect S2x64x64x512 := Rect.unit (s := S2x64x64x512) ![0, 0, 48, 0] S2x16x16x512.size Gen.inb_S2x64x64x512_S2x16x16x512_0_0_48_0
abbrev srcR10 : Rect S2x64x64x512 := Rect.unit (s := S2x64x64x512) ![0, 16, 0, 0] S2x16x16x512.size Gen.inb_S2x64x64x512_S2x16x16x512_0_16_0_0
abbrev srcR11 : Rect S2x64x64x512 := Rect.unit (s := S2x64x64x512) ![0, 16, 16, 0] S2x16x16x512.size Gen.inb_S2x64x64x512_S2x16x16x512_0_16_16_0
abbrev srcR12 : Rect S2x64x64x512 := Rect.unit (s := S2x64x64x512) ![0, 16, 32, 0] S2x16x16x512.size Gen.inb_S2x64x64x512_S2x16x16x512_0_16_32_0
abbrev srcR13 : Rect S2x64x64x512 := Rect.unit (s := S2x64x64x512) ![0, 16, 48, 0] S2x16x16x512.size Gen.inb_S2x64x64x512_S2x16x16x512_0_16_48_0
abbrev srcR20 : Rect S2x64x64x512 := Rect.unit (s := S2x64x64x512) ![0, 32, 0, 0] S2x16x16x512.size Gen.inb_S2x64x64x512_S2x16x16x512_0_32_0_0
abbrev srcR21 : Rect S2x64x64x512 := Rect.unit (s := S2x64x64x512) ![0, 32, 16, 0] S2x16x16x512.size Gen.inb_S2x64x64x512_S2x16x16x512_0_32_16_0
abbrev srcR22 : Rect S2x64x64x512 := Rect.unit (s := S2x64x64x512) ![0, 32, 32, 0] S2x16x16x512.size Gen.inb_S2x64x64x512_S2x16x16x512_0_32_32_0
abbrev srcR23 : Rect S2x64x64x512 := Rect.unit (s := S2x64x64x512) ![0, 32, 48, 0] S2x16x16x512.size Gen.inb_S2x64x64x512_S2x16x16x512_0_32_48_0
abbrev srcR30 : Rect S2x64x64x512 := Rect.unit (s := S2x64x64x512) ![0, 48, 0, 0] S2x16x16x512.size Gen.inb_S2x64x64x512_S2x16x16x512_0_48_0_0
abbrev srcR31 : Rect S2x64x64x512 := Rect.unit (s := S2x64x64x512) ![0, 48, 16, 0] S2x16x16x512.size Gen.inb_S2x64x64x512_S2x16x16x512_0_48_16_0
abbrev srcR32 : Rect S2x64x64x512 := Rect.unit (s := S2x64x64x512) ![0, 48, 32, 0] S2x16x16x512.size Gen.inb_S2x64x64x512_S2x16x16x512_0_48_32_0
abbrev srcR33 : Rect S2x64x64x512 := Rect.unit (s := S2x64x64x512) ![0, 48, 48, 0] S2x16x16x512.size Gen.inb_S2x64x64x512_S2x16x16x512_0_48_48_0

abbrev dstR00 : Rect S2x4x4x512 := Rect.unit (s := S2x4x4x512) ![0, 0, 0, 0] S2x1x1x512.size Gen.inb_S2x4x4x512_S2x1x1x512_0_0_0_0
abbrev dstR01 : Rect S2x4x4x512 := Rect.unit (s := S2x4x4x512) ![0, 0, 1, 0] S2x1x1x512.size Gen.inb_S2x4x4x512_S2x1x1x512_0_0_1_0
abbrev dstR02 : Rect S2x4x4x512 := Rect.unit (s := S2x4x4x512) ![0, 0, 2, 0] S2x1x1x512.size Gen.inb_S2x4x4x512_S2x1x1x512_0_0_2_0
abbrev dstR03 : Rect S2x4x4x512 := Rect.unit (s := S2x4x4x512) ![0, 0, 3, 0] S2x1x1x512.size Gen.inb_S2x4x4x512_S2x1x1x512_0_0_3_0
abbrev dstR10 : Rect S2x4x4x512 := Rect.unit (s := S2x4x4x512) ![0, 1, 0, 0] S2x1x1x512.size Gen.inb_S2x4x4x512_S2x1x1x512_0_1_0_0
abbrev dstR11 : Rect S2x4x4x512 := Rect.unit (s := S2x4x4x512) ![0, 1, 1, 0] S2x1x1x512.size Gen.inb_S2x4x4x512_S2x1x1x512_0_1_1_0
abbrev dstR12 : Rect S2x4x4x512 := Rect.unit (s := S2x4x4x512) ![0, 1, 2, 0] S2x1x1x512.size Gen.inb_S2x4x4x512_S2x1x1x512_0_1_2_0
abbrev dstR13 : Rect S2x4x4x512 := Rect.unit (s := S2x4x4x512) ![0, 1, 3, 0] S2x1x1x512.size Gen.inb_S2x4x4x512_S2x1x1x512_0_1_3_0
abbrev dstR20 : Rect S2x4x4x512 := Rect.unit (s := S2x4x4x512) ![0, 2, 0, 0] S2x1x1x512.size Gen.inb_S2x4x4x512_S2x1x1x512_0_2_0_0
abbrev dstR21 : Rect S2x4x4x512 := Rect.unit (s := S2x4x4x512) ![0, 2, 1, 0] S2x1x1x512.size Gen.inb_S2x4x4x512_S2x1x1x512_0_2_1_0
abbrev dstR22 : Rect S2x4x4x512 := Rect.unit (s := S2x4x4x512) ![0, 2, 2, 0] S2x1x1x512.size Gen.inb_S2x4x4x512_S2x1x1x512_0_2_2_0
abbrev dstR23 : Rect S2x4x4x512 := Rect.unit (s := S2x4x4x512) ![0, 2, 3, 0] S2x1x1x512.size Gen.inb_S2x4x4x512_S2x1x1x512_0_2_3_0
abbrev dstR30 : Rect S2x4x4x512 := Rect.unit (s := S2x4x4x512) ![0, 3, 0, 0] S2x1x1x512.size Gen.inb_S2x4x4x512_S2x1x1x512_0_3_0_0
abbrev dstR31 : Rect S2x4x4x512 := Rect.unit (s := S2x4x4x512) ![0, 3, 1, 0] S2x1x1x512.size Gen.inb_S2x4x4x512_S2x1x1x512_0_3_1_0
abbrev dstR32 : Rect S2x4x4x512 := Rect.unit (s := S2x4x4x512) ![0, 3, 2, 0] S2x1x1x512.size Gen.inb_S2x4x4x512_S2x1x1x512_0_3_2_0
abbrev dstR33 : Rect S2x4x4x512 := Rect.unit (s := S2x4x4x512) ![0, 3, 3, 0] S2x1x1x512.size Gen.inb_S2x4x4x512_S2x1x1x512_0_3_3_0

end Cert.KernelIdeal.Slab

end
-- ==== Proof.KernelIdealFrame.lean ====
/-
  The frame of the kernel program, read at any float instance (the word-level one and the exact one alike): every
  weakly fair run of @main ends, faults nowhere, and leaves the argument array as launched.

  @main is ONE pipelined call on a grid of 16 points followed by 18 host operations (three quotients by a constant,
  two sums over pairs of axes, reshapes, a concatenation along the feature axis, a broadcast). At point t the
  pipeline hands the body rows [2t, 2t+2) of the [32,64,64,512] argument and takes back rows [2t, 2t+2) of the
  [32,4,4,512] array of block sums. The body makes sixteen stores, one per (i, j) with i, j < 4: the [2,1,1,512]
  slab at (i, j) receives the input slab at rows 16i.., columns 16j.. summed over its 16 rows and then over its 16
  columns. Before each store it also loads the slab it is about to overwrite and discards the value. The sixteen
  slabs tile the output block, so what the block holds after the body is one function of the input block: the
  overlay of the sixteen stored values ('outBlock'), whatever the block held before.

  The host operations after the call touch neither window's array except to read the block sums, and none writes
  the argument, which is therefore found at the end as it was launched.
-/
import proofs.«122178_j50457275793429_1_alg».proof.Proof.Gen.KernelIdeal.Launch
import proofs.«122178_j50457275793429_1_alg».proof.Proof.Gen.KernelIdeal.Skeleton
import proofs.«122178_j50457275793429_1_alg».proof.Proof.Gen.KernelIdeal.Points
import proofs.«122178_j50457275793429_1_alg».proof.Proof.KernelIdealSlabRects
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Slab

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the call -/

/-- Core c's buffers when the call is entered: no host operation comes before it, so they are the launch contents. -/
abbrev V0 (c : Dev nD) : Valuation τ sig (Elt F) :=
  StableHlo.after (List.flatten ([] : List (List (HloOp τ sig (Elt F))))) (fun b => m (c, b))
/-- The same, read at a TensorCore reference. -/
abbrev V (c : Dev nD) (b : Ref sig .tc) : Buf (Elt F) ((c : Thread nD τ).loc b) := V0 m c (Proc.devRef .tc b)

/-- None of the eighteen host operations allocates. -/
theorem tailOps_fresh : (hostOps1 : List (HloOp τ sig (Elt F))).Forall fun op => op.fresh = ∅ := by
  simp only [List.Forall]; repeat' constructor

/-- @main is the call continued by the host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall]) (by simp only [List.Forall]) main_chain

/-- The host operations touch only unscoped TensorCore buffers: the two arrays of the call and buffers the call
    does not use. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp tailOps_fresh) op hop

/-- Each host operation writes its own result buffer, and none of those is the argument or the block-sum array. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.reshape_writes, StableHlo.nary_writes, Finset.mem_singleton] <;> exact StableHlo.devRef_ne_of_ne (by decide)

/-- The call finds the argument as launched. -/
theorem V_arg (c : Dev nD) : V m c main_arg0 = m ((c : Thread nD τ).loc main_arg0) := rfl

/-- After the host operations the argument is still as launched: none of them writes it. -/
theorem tail_arg (dats : (p : Fin _) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (Pipeline.afterTail₀ cfgs dats 0 (V0 m) [hostOps1]) r) :
    r.2.mem ((c.tc : Thread nD τ).loc main_arg0) = m ((c.tc : Thread nD τ).loc main_arg0) :=
  ((h c).1 0).trans (((dats 0 c).arrAt_in 0 rfl _).trans ((hA c 0).trans (V_arg m c)))

/-! ## The blocks -/

/-- Window w's block at point t, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input's staging buffer holds its block at every point, for any proof data over these arrays whose body
    leaves the block in place. -/
theorem before_in_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output block -/

/-- The output block after the body, from the input block x0: the sixteen stores overlaid, the last first. Slab
    (i, j) holds the input slab (i, j) summed over its rows, then over its columns; for (0,3) and (2,2) the program
    carries the row sums across a cut in its text, which changes nothing. -/
def outBlock (x0 : Vec F S2x64x64x512 .f32) : Vec F S2x4x4x512 .f32 :=
  View.canon [⟨dstR33, k0_pay2 (View.ld x0 srcR33)⟩, ⟨dstR32, k0_pay1 (View.ld x0 srcR32)⟩,
    ⟨dstR31, k0_pay18 (View.ld x0 srcR31)⟩, ⟨dstR30, k0_pay17 (View.ld x0 srcR30)⟩,
    ⟨dstR23, k0_pay16 (View.ld x0 srcR23)⟩, ⟨dstR22, k0_pay15 (k0_pay14 (View.ld x0 srcR22))⟩,
    ⟨dstR21, k0_pay13 (View.ld x0 srcR21)⟩, ⟨dstR20, k0_pay12 (View.ld x0 srcR20)⟩,
    ⟨dstR13, k0_pay11 (View.ld x0 srcR13)⟩, ⟨dstR12, k0_pay10 (View.ld x0 srcR12)⟩,
    ⟨dstR11, k0_pay9 (View.ld x0 srcR11)⟩, ⟨dstR10, k0_pay8 (View.ld x0 srcR10)⟩,
    ⟨dstR03, k0_pay7 (k0_pay6 (View.ld x0 srcR03))⟩, ⟨dstR02, k0_pay5 (View.ld x0 srcR02)⟩,
    ⟨dstR01, k0_pay4 (View.ld x0 srcR01)⟩, ⟨dstR00, k0_pay3 (View.ld x0 srcR00)⟩]

/-- The sixteen slabs tile the block. -/
theorem outBlock_cover (p00 p01 p02 p03 p10 p11 p12 p13 p20 p21 p22 p23 p30 p31 p32 p33 : Vec F S2x1x1x512 .f32) (y : S2x4x4x512.Idx) :
    ∃ pc ∈ ([⟨dstR33, p33⟩, ⟨dstR32, p32⟩, ⟨dstR31, p31⟩, ⟨dstR30, p30⟩, ⟨dstR23, p23⟩, ⟨dstR22, p22⟩, ⟨dstR21, p21⟩, ⟨dstR20, p20⟩,
      ⟨dstR13, p13⟩, ⟨dstR12, p12⟩, ⟨dstR11, p11⟩, ⟨dstR10, p10⟩, ⟨dstR03, p03⟩, ⟨dstR02, p02⟩, ⟨dstR01, p01⟩, ⟨dstR00, p00⟩] : List (View.Piece (Elt F) S2x4x4x512 .f32)), y ∈ pc.1.set :=
  View.cover_of_tiled (s := S2x4x4x512) _ (S2x1x1x512.size : Fin S2x4x4x512.rank → ℕ) (by rfl) y

/-! ## The body's triple -/

set_option maxHeartbeats 4000000 in
/-- On whole staging buffers, the input's at x0 and the output's at anything, the body runs to a state with the
    input's buffer unchanged and the output's at 'outBlock x0'. -/
theorem sound_kernel (c : Dev nD) (E : Set ℕ) (i : grid0.Coords) (arg1 : Memref sig .tc .vmem S2x64x64x512 .f32) (harg1 : arg1.IsWhole)
    (arg2 : Memref sig .tc .vmem S2x4x4x512 .f32) (harg2 : arg2.IsWhole) (x0 : Vec F S2x64x64x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (outBlock x0)) -∗ K ⟨⟩))
      ⊢ wp frame (wpE (defs₀ (F := F)) Variants.none c none) E (cc0_block_sum_kernel i arg1 harg1 arg2 harg2) K := by
  simp only [cc0_block_sum_kernel_eq_skeleton]; unfold cc0_block_sum_kernel_skel
  simp only [k0_part1_eq_skeleton, k0_part2_eq_skeleton, k0_part3_eq_skeleton, k0_part4_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (outBlock_cover _ _ _ _ _ _ _ _ _ _ _ _ _ _ _ _)

/-! ## The proof data -/

/-- The pipeline's proof data on core c: the arrays as the call finds them; after the body at point t the input's
    buffer at its block and the output's at 'outBlock' of that block; the invariant is the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outBlock (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in (c : Dev nD) (t : Fin cfg0.N) : (dats m 0 c).after 0 t = iblk m c 0 t := by dsimp only [dats]
theorem after_out (c : Dev nD) (t : Fin cfg0.N) : (dats m 0 c).after 1 t = outBlock (iblk m c 0 t) := by dsimp only [dats]

theorem before_in (c : Dev nD) (t : Fin cfg0.N) (d) : (dats m 0 c).before 0 t d = iblk m c 0 t :=
  before_in_of m (dats m 0 c) (A_eq m c 0) (after_in m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's buffer holds its block, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).Φ t.succ = (dats m 0 c).Φ t.castSucc from rfl,
    show (dats m 0 c).owesAt () t.succ = (dats m 0 c).owesAt () t.castSucc from rfl,
    after_in, after_out]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair run of @main ends with the block-sum array at what the proof data computes, and every other
    unscoped buffer as the host operations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The frame: the argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => tail_arg m (dats m) (A_eq m) c r h) (run_main m ρ)

end Cert.KernelIdeal.Fr

end
-- ==== Proof.KernelBlock.lean ====
/-
  What the kernel body leaves in the output block, as one function of the input block, at the exact instance.

  The input block x0 is [2, 64, 64, 512] and the output block [2, 4, 4, 512]. Each of the sixteen stored slabs is its
  loaded [2, 16, 16, 512] slab v summed over its 16 rows (axis 1), then over its 16 columns (what was axis 2), and
  reshaped from [2, 512] to [2, 1, 1, 512]: at (p, 0, 0, ch) it is the double sum of v (p, h, w, ch) over w and h
  ('slab_sum'). The slab loaded for (i, j) is x0 at rows 16 i + h and columns 16 j + w, and the slab stored for
  (i, j) sits at (p, i, j, ch). So the overlay of the sixteen stores is, at (p, i, j, ch), the sum of x0 over the
  16-by-16 window at (16 i, 16 j) ('outBlock_apply'): a tiling by slabs that are all the same function of the index.
-/
import proofs.«122178_j50457275793429_1_alg».proof.Proof.KernelIdealFrame
import Idealize.ShloMosaic.Lib.ValueIdx
import Idealize.ShloMosaic.Lib.Pipeline.Value
import Idealize.ShloMosaic.PureOps.Ideal.Laws

set_option maxRecDepth 16384

noncomputable section

namespace Cert.KernelIdeal.Block

open Idealize.ShloMosaic Idealize.ShloMosaic.ValueIdx
open Cert.KernelIdeal Cert.KernelIdeal.Gen Cert.KernelIdeal.Slab Cert.KernelIdeal.Fr

/-- Row (or column) 16 i + h of the input block, for slab i < 4 and offset h < 16. -/
def at16 (i : Fin 4) (h : Fin 16) : Fin 64 := ⟨16 * i.val + h.val, by have := i.isLt; have := h.isLt; omega⟩

/-- The sum over the rows of a slab: at (p, w, ch) the sum over h of v (p, h, w, ch). -/
theorem rows_sum (v : FVec Ideal S2x16x16x512 .f32) (p : Fin 2) (w : Fin 16) (ch : Fin 512) :
    multiReduction .add [1] S2x16x512 v 0x00000000#32 reduces_S2x16x16x512_S2x16x512 (.inl rfl) rfl (ix3 p w ch)
      = ∑ h : Fin 16, v (ix4 p h w ch) := by
  refine (Ideal.multiReduction_add_single v 0x00000000#32 reduces_S2x16x16x512_S2x16x512 (.inl rfl) rfl (ix3 p w ch)).trans ?_
  refine Finset.sum_congr rfl fun h _ => congrArg v ?_
  funext a; match a with | ⟨0, _⟩ => rfl | ⟨1, _⟩ => rfl | ⟨2, _⟩ => rfl | ⟨3, _⟩ => rfl

/-- The sum over the columns of the row sums: at (p, ch) the sum over w of u (p, w, ch). -/
theorem cols_sum (u : FVec Ideal S2x16x512 .f32) (p : Fin 2) (ch : Fin 512) :
    multiReduction .add [1] S2x512 u 0x00000000#32 reduces_S2x16x512_S2x512 (.inl rfl) rfl (ix2 p ch)
      = ∑ w : Fin 16, u (ix3 p w ch) := by
  refine (Ideal.multiReduction_add_single u 0x00000000#32 reduces_S2x16x512_S2x512 (.inl rfl) rfl (ix2 p ch)).trans ?_
  refine Finset.sum_congr rfl fun w _ => congrArg u ?_
  funext a; match a with | ⟨0, _⟩ => rfl | ⟨1, _⟩ => rfl | ⟨2, _⟩ => rfl

/-- The reshape [2, 512] to [2, 1, 1, 512] keeps the entry (p, ch) at (p, 0, 0, ch). -/
theorem unit_axes (z : FVec Ideal S2x512 .f32) (p : Fin 2) (u1 u2 : Fin 1) (ch : Fin 512) :
    shapeCast S2x1x1x512 z shapeCasts_S2x512_S2x1x1x512 (ix4 p u1 u2 ch) = z (ix2 p ch) := by
  refine shapeCast_apply z shapeCasts_S2x512_S2x1x1x512 (ix4 p u1 u2 ch) (ix2 p ch) ?_
  rw [Shape.rowMajor_val_two, Shape.rowMajor_val_four]
  show p.val * 512 + ch.val = ((p.val * 1 + u1.val) * 1 + u2.val) * 512 + ch.val
  have := u1.isLt; have := u2.isLt; omega

/-- A stored slab at (p, 0, 0, ch): its loaded slab summed over rows and columns. -/
theorem slab_sum (v : FVec Ideal S2x16x16x512 .f32) (p : Fin 2) (u1 u2 : Fin 1) (ch : Fin 512) :
    shapeCast S2x1x1x512 (multiReduction .add [1] S2x512
        (multiReduction .add [1] S2x16x512 v 0x00000000#32 reduces_S2x16x16x512_S2x16x512 (.inl rfl) rfl)
        0x00000000#32 reduces_S2x16x512_S2x512 (.inl rfl) rfl) shapeCasts_S2x512_S2x1x1x512 (ix4 p u1 u2 ch)
      = ∑ w : Fin 16, ∑ h : Fin 16, v (ix4 p h w ch) :=
  (unit_axes _ p u1 u2 ch).trans ((cols_sum _ p ch).trans (Finset.sum_congr rfl fun w _ => rows_sum v p w ch))

/-- The function every slab of the output block is a piece of: at (p, i, j, ch) the sum of x0 over the window of
    side 16 at (16 i, 16 j). -/
def windowSums (x0 : Vec Ideal S2x64x64x512 .f32) : Vec Ideal S2x4x4x512 .f32 :=
  fun y => (∑ w : Fin 16, ∑ h : Fin 16, (x0 (ix4 (y 0) (at16 (y 1) h) (at16 (y 2) w) (y 3)) : EReal) : EReal)

/-- What each store writes, as a function of its loaded slab: rows summed, then columns, then the reshape. Every
    stored value in the body is this function of its slab; for two of the sixteen the program text is cut between the
    two sums or after them, which changes nothing. -/
def slabFn (v : Vec Ideal S2x16x16x512 .f32) : FVec Ideal S2x1x1x512 .f32 :=
  shapeCast S2x1x1x512 (multiReduction (F := Ideal) .add [1] S2x512
    (multiReduction (F := Ideal) .add [1] S2x16x512 v 0x00000000#32 reduces_S2x16x16x512_S2x16x512 (.inl rfl) rfl)
    0x00000000#32 reduces_S2x16x512_S2x512 (.inl rfl) rfl) shapeCasts_S2x512_S2x1x1x512

/-- One stored slab is a piece of 'windowSums': the slab loaded at rows r = 16 i.., columns c = 16 j.., summed, is
    'windowSums' at the place (p, i, j, ch) the store puts it. -/
theorem piece_eq (x0 : Vec Ideal S2x64x64x512 .f32) (i j r c : ℕ) (hi : i < 4) (hj : j < 4) (hr : r = 16 * i) (hc : c = 16 * j)
    (hs : ∀ a, (![0, r, c, 0] : Fin 4 → ℕ) a + S2x16x16x512.size a ≤ S2x64x64x512.size a)
    (hd : ∀ a, (![0, i, j, 0] : Fin 4 → ℕ) a + S2x1x1x512.size a ≤ S2x4x4x512.size a)
    (x : (Rect.unit (s := S2x4x4x512) ![0, i, j, 0] S2x1x1x512.size hd).shape.Idx) :
    slabFn (View.ld (Val := Elt Ideal) (e' := .f32) x0 (Rect.unit (s := S2x64x64x512) ![0, r, c, 0] S2x16x16x512.size hs)) x
      = windowSums x0 ((Rect.unit (s := S2x4x4x512) ![0, i, j, 0] S2x1x1x512.size hd).emb x) := by
  subst hr hc
  obtain ⟨p, u1, u2, ch, rfl⟩ : ∃ (p : Fin 2) (u1 u2 : Fin 1) (ch : Fin 512), x = ix4 p u1 u2 ch :=
    ⟨x 0, x 1, x 2, x 3, eq_ix4 x⟩
  unfold slabFn windowSums
  refine (slab_sum _ p u1 u2 ch).trans ?_
  refine Finset.sum_congr rfl fun w _ => Finset.sum_congr rfl fun h _ => ?_
  show x0 ((Rect.unit (s := S2x64x64x512) ![0, 16 * i, 16 * j, 0] S2x16x16x512.size hs).emb (ix4 p h w ch)) = _
  refine congrArg x0 (funext fun a => Fin.ext ?_)
  have h1 := u1.isLt
  have h2 := u2.isLt
  match a with
  | ⟨0, _⟩ => rfl
  | ⟨1, _⟩ => show 16 * i + 1 * h.val = 16 * (i + 1 * u1.val) + h.val; omega
  | ⟨2, _⟩ => show 16 * j + 1 * w.val = 16 * (j + 1 * u2.val) + w.val; omega
  | ⟨3, _⟩ => rfl

/-- The output block after the body is 'windowSums' of the input block: the sixteen slabs tile the block and each is
    a piece of that one function. -/
theorem outBlock_eq (x0 : Vec Ideal S2x64x64x512 .f32) : outBlock (F := Ideal) x0 = windowSums x0 := by
  funext y
  unfold outBlock
  refine View.canon_apply_of_pieces (Val := Elt Ideal) (windowSums x0) _ ?_ y (outBlock_cover _ _ _ _ _ _ _ _ _ _ _ _ _ _ _ _ y)
  intro pc hpc
  simp only [List.mem_cons, List.mem_nil_iff, or_false] at hpc
  rcases hpc with rfl | rfl | rfl | rfl | rfl | rfl | rfl | rfl | rfl | rfl | rfl | rfl | rfl | rfl | rfl | rfl
  · exact fun x => piece_eq x0 3 3 48 48 (by decide) (by decide) rfl rfl Gen.inb_S2x64x64x512_S2x16x16x512_0_48_48_0 Gen.inb_S2x4x4x512_S2x1x1x512_0_3_3_0 x
  · exact fun x => piece_eq x0 3 2 48 32 (by decide) (by decide) rfl rfl Gen.inb_S2x64x64x512_S2x16x16x512_0_48_32_0 Gen.inb_S2x4x4x512_S2x1x1x512_0_3_2_0 x
  · exact fun x => piece_eq x0 3 1 48 16 (by decide) (by decide) rfl rfl Gen.inb_S2x64x64x512_S2x16x16x512_0_48_16_0 Gen.inb_S2x4x4x512_S2x1x1x512_0_3_1_0 x
  · exact fun x => piece_eq x0 3 0 48 0 (by decide) (by decide) rfl rfl Gen.inb_S2x64x64x512_S2x16x16x512_0_48_0_0 Gen.inb_S2x4x4x512_S2x1x1x512_0_3_0_0 x
  · exact fun x => piece_eq x0 2 3 32 48 (by decide) (by decide) rfl rfl Gen.inb_S2x64x64x512_S2x16x16x512_0_32_48_0 Gen.inb_S2x4x4x512_S2x1x1x512_0_2_3_0 x
  · exact fun x => piece_eq x0 2 2 32 32 (by decide) (by decide) rfl rfl Gen.inb_S2x64x64x512_S2x16x16x512_0_32_32_0 Gen.inb_S2x4x4x512_S2x1x1x512_0_2_2_0 x
  · exact fun x => piece_eq x0 2 1 32 16 (by decide) (by decide) rfl rfl Gen.inb_S2x64x64x512_S2x16x16x512_0_32_16_0 Gen.inb_S2x4x4x512_S2x1x1x512_0_2_1_0 x
  · exact fun x => piece_eq x0 2 0 32 0 (by decide) (by decide) rfl rfl Gen.inb_S2x64x64x512_S2x16x16x512_0_32_0_0 Gen.inb_S2x4x4x512_S2x1x1x512_0_2_0_0 x
  · exact fun x => piece_eq x0 1 3 16 48 (by decide) (by decide) rfl rfl Gen.inb_S2x64x64x512_S2x16x16x512_0_16_48_0 Gen.inb_S2x4x4x512_S2x1x1x512_0_1_3_0 x
  · exact fun x => piece_eq x0 1 2 16 32 (by decide) (by decide) rfl rfl Gen.inb_S2x64x64x512_S2x16x16x512_0_16_32_0 Gen.inb_S2x4x4x512_S2x1x1x512_0_1_2_0 x
  · exact fun x => piece_eq x0 1 1 16 16 (by decide) (by decide) rfl rfl Gen.inb_S2x64x64x512_S2x16x16x512_0_16_16_0 Gen.inb_S2x4x4x512_S2x1x1x512_0_1_1_0 x
  · exact fun x => piece_eq x0 1 0 16 0 (by decide) (by decide) rfl rfl Gen.inb_S2x64x64x512_S2x16x16x512_0_16_0_0 Gen.inb_S2x4x4x512_S2x1x1x512_0_1_0_0 x
  · exact fun x => piece_eq x0 0 3 0 48 (by decide) (by decide) rfl rfl Gen.inb_S2x64x64x512_S2x16x16x512_0_0_48_0 Gen.inb_S2x4x4x512_S2x1x1x512_0_0_3_0 x
  · exact fun x => piece_eq x0 0 2 0 32 (by decide) (by decide) rfl rfl Gen.inb_S2x64x64x512_S2x16x16x512_0_0_32_0 Gen.inb_S2x4x4x512_S2x1x1x512_0_0_2_0 x
  · exact fun x => piece_eq x0 0 1 0 16 (by decide) (by decide) rfl rfl Gen.inb_S2x64x64x512_S2x16x16x512_0_0_16_0 Gen.inb_S2x4x4x512_S2x1x1x512_0_0_1_0 x
  · exact fun x => piece_eq x0 0 0 0 0 (by decide) (by decide) rfl rfl Gen.inb_S2x64x64x512_S2x16x16x512_0_0_0_0 Gen.inb_S2x4x4x512_S2x1x1x512_0_0_0_0 x

end Cert.KernelIdeal.Block

end
-- ==== Proof.KernelArray.lean ====
/-
  The block-sum array after the run, at the exact instance: one function of the argument.

  Point t of the grid (t < 16) is handed rows 2t, 2t + 1 of the [32, 64, 64, 512] argument x and writes back rows
  2t, 2t + 1 of the [32, 4, 4, 512] array; both windows move along the batch axis only. What it writes back is
  'windowSums' of its input block, and the entry (p, 16 i + h, 16 j + w, ch) of that block is x at
  (2t + p, 16 i + h, 16 j + w, ch). So the write-back is the block of ONE function of x,

      blockSums x (b, i, j, ch) = the sum over w, h < 16 of x (b, 16 i + h, 16 j + w, ch),

  and since the sixteen blocks cover all 32 rows (row b belongs to point b / 2), the array ends holding
  'blockSums x' everywhere.
-/
import proofs.«122178_j50457275793429_1_alg».proof.Proof.KernelIdealFrame
import proofs.«122178_j50457275793429_1_alg».proof.Proof.KernelBlock
import Idealize.ShloMosaic.Lib.ValueIdx
import Idealize.ShloMosaic.Lib.Pipeline.Value

set_option maxRecDepth 16384

noncomputable section

namespace Cert.KernelIdeal.Arr

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Fr Cert.KernelIdeal.Block

variable (m : (ℓ : Loc nD τ sig) → Buf (Elt Ideal) ℓ)

/-- The sums over the sixteen 16-by-16 windows of each image and channel. -/
def blockSums (x : Vec Ideal S32x64x64x512 .f32) : Vec Ideal S32x4x4x512 .f32 :=
  fun j => (∑ w : Fin 16, ∑ h : Fin 16, (x (ix4 (j 0) (at16 (j 1) h) (at16 (j 2) w) (j 3)) : EReal) : EReal)

/-- Both windows' block index at point t is (t, 0, 0, 0). -/
theorem block_index : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0 :=
  (by decide +kernel : ∀ t : Fin grid0.N, _)

/-- What point t writes back is block t of 'blockSums' of the argument. -/
theorem flushed_eq (c : Dev nD) (t : Fin cfg0.N) :
    (dats (F := Ideal) m 0 c).flushed 1 t = ((cfg0.win 1).blk t).view.read (Elt Ideal) (blockSums (V m c main_arg0)) := by
  show (cfg0.win 1).cut (grid0.coords t) ((dats m 0 c).after 1 t) = _
  rw [after_out]
  obtain ⟨a0, a1, a2, a3, b0, b1, b2, b3⟩ := block_index t
  funext y
  refine (congrFun (outBlock_eq (iblk m c 0 t)) y).trans ?_
  show windowSums (iblk m c 0 t) y = blockSums (V m c main_arg0) (((cfg0.win 1).blk t).view.emb y)
  unfold windowSums blockSums
  refine Finset.sum_congr rfl fun w _ => Finset.sum_congr rfl fun h _ => ?_
  show V m c main_arg0 (((cfg0.win 0).blk t).view.emb (ix4 (y 0) (at16 (y 1) h) (at16 (y 2) w) (y 3))) = _
  refine congrArg (V m c main_arg0) (funext fun a => Fin.ext ?_)
  match a with
  | ⟨0, _⟩ => show win0_0.index t (0 : Fin 4) * 2 + 1 * (y 0).val = win0_1.index t (0 : Fin 4) * 2 + 1 * (y 0).val; omega
  | ⟨1, _⟩ => show win0_0.index t (1 : Fin 4) * 64 + 1 * (16 * (y 1).val + h.val) = 16 * (win0_1.index t (1 : Fin 4) * 4 + 1 * (y 1).val) + h.val; omega
  | ⟨2, _⟩ => show win0_0.index t (2 : Fin 4) * 64 + 1 * (16 * (y 2).val + w.val) = 16 * (win0_1.index t (2 : Fin 4) * 4 + 1 * (y 2).val) + w.val; omega
  | ⟨3, _⟩ => show win0_0.index t (3 : Fin 4) * 512 + 1 * (y 3).val = win0_1.index t (3 : Fin 4) * 512 + 1 * (y 3).val; omega

/-- An index of the array is in point t's block iff each coordinate is in the block's range on its axis. -/
theorem mem_block (t : Fin cfg0.N) (i : S32x4x4x512.Idx) :
    i ∈ ((cfg0.win 1).blk t).view.set ↔ ∀ a : Fin 4, win0_1.index t a * S2x4x4x512.size a ≤ (i a).val ∧ (i a).val < win0_1.index t a * S2x4x4x512.size a + S2x4x4x512.size a := by
  show i ∈ ((View.whole main_v0).slice (win0_1.rect t)).set ↔ _
  rw [View.set_slice_whole, Rect.mem_set_unit]
  exact Iff.rfl

/-- The array after the run: 'blockSums' of the argument as the call found it. -/
theorem final (c : Dev nD) : (dats (F := Ideal) m 0 c).arrAt 1 cfg0.N = blockSums (V m c main_arg0) :=
  (dats m 0 c).arrAt_eq_of_cover 1 (blockSums (V m c main_arg0)) (fun t _ => flushed_eq m c t) fun i => by
    have h0 : (i 0).val < 32 := (i 0).isLt
    have h1 : (i 1).val < 4 := (i 1).isLt
    have h2 : (i 2).val < 4 := (i 2).isLt
    have h3 : (i 3).val < 512 := (i 3).isLt
    have hN : (i 0).val / 2 < cfg0.N := by show _ < grid0.N; rw [N_0]; omega
    obtain ⟨-, -, -, -, b0, b1, b2, b3⟩ := block_index ⟨(i 0).val / 2, hN⟩
    refine ⟨⟨(i 0).val / 2, hN⟩, flush0_1 _, ?_⟩
    rw [mem_block]
    intro a
    match a with
    | ⟨0, _⟩ => show win0_1.index ⟨(i 0).val / 2, hN⟩ (0 : Fin 4) * 2 ≤ (i 0).val ∧ (i 0).val < win0_1.index ⟨(i 0).val / 2, hN⟩ (0 : Fin 4) * 2 + 2; rw [b0]; show (i 0).val / 2 * 2 ≤ (i 0).val ∧ (i 0).val < (i 0).val / 2 * 2 + 2; omega
    | ⟨1, _⟩ => show win0_1.index ⟨(i 0).val / 2, hN⟩ (1 : Fin 4) * 4 ≤ (i 1).val ∧ (i 1).val < win0_1.index ⟨(i 0).val / 2, hN⟩ (1 : Fin 4) * 4 + 4; rw [b1]; omega
    | ⟨2, _⟩ => show win0_1.index ⟨(i 0).val / 2, hN⟩ (2 : Fin 4) * 4 ≤ (i 2).val ∧ (i 2).val < win0_1.index ⟨(i 0).val / 2, hN⟩ (2 : Fin 4) * 4 + 4; rw [b2]; omega
    | ⟨3, _⟩ => show win0_1.index ⟨(i 0).val / 2, hN⟩ (3 : Fin 4) * 512 ≤ (i 3).val ∧ (i 3).val < win0_1.index ⟨(i 0).val / 2, hN⟩ (3 : Fin 4) * 512 + 512; rw [b3]; omega

end Cert.KernelIdeal.Arr

end
-- ==== Proof.PoolSpec.lean ====
/-
  Spatial pyramid pooling over a [32, 64, 64, 512] array, as sums of square windows.

  For an array x the window sum 'win x n b h0 w0 ch' adds x at (b, h0 + h, w0 + w, ch) over h, w < n. Level s of the
  pyramid (s = 1, 2, 4) has s * s bins per image; bin (p, q) is the window of side 64 / s at (64/s * p, 64/s * q), and
  the pooled value is that sum divided by the number of its entries. The kernel forms the sixteen finest window sums
  (side 16) and adds them in groups to get the coarser ones; the reference sums each window directly. The two agree
  because a window of side k * n is the disjoint union of k * k windows of side n ('win_split'): only commutativity
  and associativity of addition on the extended reals are used, so nothing is asked of the entries.

  Coordinates are natural numbers and x is extended by zero outside its box ('ext'), so that every index identity
  below is plain arithmetic.
-/
import Idealize.ShloMosaic.Lib.ValueIdx
import Idealize.ShloMosaic.PureOps.Ideal
import Mathlib.Algebra.BigOperators.Intervals
import Mathlib.Algebra.BigOperators.Group.Finset.Basic

noncomputable section

namespace Cert.Pool

open Idealize.ShloMosaic Idealize.ShloMosaic.ValueIdx

/-- The shape of the pooled array. -/
abbrev SIn : Shape := ⟨4, ![32, 64, 64, 512]⟩

/-- x at natural-number coordinates, zero outside the box. -/
def ext (x : SIn.Idx → EReal) (b h w ch : ℕ) : EReal :=
  if hh : b < 32 ∧ h < 64 ∧ w < 64 ∧ ch < 512 then x (ix4 ⟨b, hh.1⟩ ⟨h, hh.2.1⟩ ⟨w, hh.2.2.1⟩ ⟨ch, hh.2.2.2⟩) else 0

/-- Inside the box 'ext' is x. -/
theorem ext_eq (x : SIn.Idx → EReal) (b : Fin 32) (h : Fin 64) (w : Fin 64) (ch : Fin 512) :
    ext x b h w ch = x (ix4 b h w ch) := by
  unfold ext
  rw [dif_pos ⟨b.isLt, h.isLt, w.isLt, ch.isLt⟩]

/-- The sum of x over the n-by-n window at (h0, w0) of image b, channel ch. -/
def win (x : SIn.Idx → EReal) (n b h0 w0 ch : ℕ) : EReal :=
  ∑ h ∈ Finset.range n, ∑ w ∈ Finset.range n, ext x b (h0 + h) (w0 + w) ch

/-- A range of length k * n is k consecutive ranges of length n. -/
theorem sum_range_mul {M : Type} [AddCommMonoid M] (f : ℕ → M) (k n : ℕ) :
    ∑ i ∈ Finset.range (k * n), f i = ∑ p ∈ Finset.range k, ∑ r ∈ Finset.range n, f (n * p + r) := by
  induction k with
  | zero => simp
  | succ k ih =>
    rw [Nat.succ_mul, Finset.sum_range_add, ih, Finset.sum_range_succ, Nat.mul_comm n k]

/-- A window of side k * n is the k * k windows of side n that tile it. -/
theorem win_split (x : SIn.Idx → EReal) (k n b h0 w0 ch : ℕ) :
    ∑ p ∈ Finset.range k, ∑ q ∈ Finset.range k, win x n b (h0 + n * p) (w0 + n * q) ch = win x (k * n) b h0 w0 ch := by
  unfold win
  -- rows: the k * n rows of the large window are k runs of n rows
  rw [sum_range_mul (fun h' => ∑ w' ∈ Finset.range (k * n), ext x b (h0 + h') (w0 + w') ch) k n]
  refine Finset.sum_congr rfl fun p _ => ?_
  -- bring the row inside a run outside the choice of the column run
  rw [Finset.sum_comm]
  refine Finset.sum_congr rfl fun h _ => ?_
  -- columns likewise
  rw [sum_range_mul (fun w' => ext x b (h0 + (n * p + h)) (w0 + w') ch) k n]
  refine Finset.sum_congr rfl fun q _ => Finset.sum_congr rfl fun w _ => ?_
  rw [Nat.add_assoc, Nat.add_assoc]

end Cert.Pool

end
-- ==== Proof.LibSumTwoAxes.lean ====
/-
  The host's sum over TWO axes, read at an index of the result at the exact instance.

  At the extended reals the host's 'reduce ... add' at a result index j is the initial value plus the sum of the
  operand over the source indices whose kept coordinates are j. When two axes are dropped, those source indices are
  exactly j with a pair (a, b) of coordinates inserted on the dropped axes, one index per pair; so the sum is a double
  sum over a and b. Two cases are stated, each for any extents: a rank-6 array summed over axes 2 and 4 (a window sum
  written as reshape-then-reduce), and a rank-4 array summed over axes 1 and 2.
-/
import Idealize.ShloMosaic.Lib.ValueIdx
import Idealize.ShloMosaic.Lib.ValueIdxRank6
import Idealize.ShloMosaic.PureOps.Ideal
import Idealize.ShloMosaic.PureOps.Reduce

namespace Cert.Lib.SumTwoAxes

open Idealize.ShloMosaic Idealize.ShloMosaic.ValueIdx

/-- Dropping axes 2 and 4 of a rank-6 index keeps its coordinates on axes 0, 1, 3, 5, in that order (whatever the
    extents: which axes are kept depends on the rank and the dropped axes only). -/
theorem drop_rank6_axes24_val {n0 n1 n2 n3 n4 n5 : ℕ}
    (h : (⟨6, ![n0, n1, n2, n3, n4, n5]⟩ : Shape).ReducesTo [2, 4] ⟨4, ![n0, n1, n3, n5]⟩)
    (i : (⟨6, ![n0, n1, n2, n3, n4, n5]⟩ : Shape).Idx) :
    ((h.drop i 0 : Fin n0) : ℕ) = i 0 ∧ ((h.drop i 1 : Fin n1) : ℕ) = i 1
      ∧ ((h.drop i 2 : Fin n3) : ℕ) = i 3 ∧ ((h.drop i 3 : Fin n5) : ℕ) = i 5 :=
  ⟨rfl, rfl, rfl, rfl⟩

/-- Rank 6, axes 2 and 4 dropped: the kept coordinates of the result index j are the source's on axes 0, 1, 3, 5. -/
theorem hostReduceAdd_rank6_axes24 {n0 n1 n2 n3 n4 n5 : ℕ}
    (h : (⟨6, ![n0, n1, n2, n3, n4, n5]⟩ : Shape).ReducesTo [2, 4] ⟨4, ![n0, n1, n3, n5]⟩)
    (x : (⟨6, ![n0, n1, n2, n3, n4, n5]⟩ : Shape).Idx → EReal) (init : EReal)
    (j : (⟨4, ![n0, n1, n3, n5]⟩ : Shape).Idx) :
    Ideal.hostReduceAdd h x init j = init + ∑ a : Fin n2, ∑ b : Fin n4, x (ix6 (j 0) (j 1) a (j 2) b (j 3)) := by
  unfold Ideal.hostReduceAdd
  congr 1
  rw [← Finset.sum_product']
  -- the source indices over j are the pairs (a, b), one each
  refine Finset.sum_nbij' (fun i => (i 2, i 4)) (fun ab => ix6 (j 0) (j 1) ab.1 (j 2) ab.2 (j 3)) ?_ ?_ ?_ ?_ ?_
  · intro i _; exact Finset.mem_product.mpr ⟨Finset.mem_univ _, Finset.mem_univ _⟩
  · intro ab _
    refine Finset.mem_filter.mpr ⟨Finset.mem_univ _, funext fun b => Fin.ext ?_⟩
    have hv := drop_rank6_axes24_val h (ix6 (j 0) (j 1) ab.1 (j 2) ab.2 (j 3))
    match b with
    | ⟨0, _⟩ => exact hv.1
    | ⟨1, _⟩ => exact hv.2.1
    | ⟨2, _⟩ => exact hv.2.2.1
    | ⟨3, _⟩ => exact hv.2.2.2
  · intro i hi
    have hd : h.drop i = j := (Finset.mem_filter.mp hi).2
    obtain ⟨e0, e1, e2, e3⟩ := drop_rank6_axes24_val h i
    rw [hd] at e0 e1 e2 e3
    funext g
    match g with
    | ⟨0, _⟩ => exact Fin.ext e0
    | ⟨1, _⟩ => exact Fin.ext e1
    | ⟨2, _⟩ => rfl
    | ⟨3, _⟩ => exact Fin.ext e2
    | ⟨4, _⟩ => rfl
    | ⟨5, _⟩ => exact Fin.ext e3
  · intro ab _; rfl
  · intro i hi
    have hd : h.drop i = j := (Finset.mem_filter.mp hi).2
    obtain ⟨e0, e1, e2, e3⟩ := drop_rank6_axes24_val h i
    rw [hd] at e0 e1 e2 e3
    congr 1
    funext g
    match g with
    | ⟨0, _⟩ => exact (Fin.ext e0).symm
    | ⟨1, _⟩ => exact (Fin.ext e1).symm
    | ⟨2, _⟩ => rfl
    | ⟨3, _⟩ => exact (Fin.ext e2).symm
    | ⟨4, _⟩ => rfl
    | ⟨5, _⟩ => exact (Fin.ext e3).symm

/-- Dropping axes 1 and 2 of a rank-4 index keeps its coordinates on axes 0 and 3. -/
theorem drop_rank4_axes12_val {n0 n1 n2 n3 : ℕ}
    (h : (⟨4, ![n0, n1, n2, n3]⟩ : Shape).ReducesTo [1, 2] ⟨2, ![n0, n3]⟩) (i : (⟨4, ![n0, n1, n2, n3]⟩ : Shape).Idx) :
    ((h.drop i 0 : Fin n0) : ℕ) = i 0 ∧ ((h.drop i 1 : Fin n3) : ℕ) = i 3 :=
  ⟨rfl, rfl⟩

/-- Rank 4, axes 1 and 2 dropped: the kept coordinates of j are the source's on axes 0 and 3. -/
theorem hostReduceAdd_rank4_axes12 {n0 n1 n2 n3 : ℕ}
    (h : (⟨4, ![n0, n1, n2, n3]⟩ : Shape).ReducesTo [1, 2] ⟨2, ![n0, n3]⟩)
    (x : (⟨4, ![n0, n1, n2, n3]⟩ : Shape).Idx → EReal) (init : EReal) (j : (⟨2, ![n0, n3]⟩ : Shape).Idx) :
    Ideal.hostReduceAdd h x init j = init + ∑ a : Fin n1, ∑ b : Fin n2, x (ix4 (j 0) a b (j 1)) := by
  unfold Ideal.hostReduceAdd
  congr 1
  rw [← Finset.sum_product']
  refine Finset.sum_nbij' (fun i => (i 1, i 2)) (fun ab => ix4 (j 0) ab.1 ab.2 (j 1)) ?_ ?_ ?_ ?_ ?_
  · intro i _; exact Finset.mem_product.mpr ⟨Finset.mem_univ _, Finset.mem_univ _⟩
  · intro ab _
    refine Finset.mem_filter.mpr ⟨Finset.mem_univ _, funext fun b => Fin.ext ?_⟩
    have hv := drop_rank4_axes12_val h (ix4 (j 0) ab.1 ab.2 (j 1))
    match b with
    | ⟨0, _⟩ => exact hv.1
    | ⟨1, _⟩ => exact hv.2
  · intro i hi
    have hd : h.drop i = j := (Finset.mem_filter.mp hi).2
    obtain ⟨e0, e1⟩ := drop_rank4_axes12_val h i
    rw [hd] at e0 e1
    funext g
    match g with
    | ⟨0, _⟩ => exact Fin.ext e0
    | ⟨1, _⟩ => rfl
    | ⟨2, _⟩ => rfl
    | ⟨3, _⟩ => exact Fin.ext e1
  · intro ab _; rfl
  · intro i hi
    have hd : h.drop i = j := (Finset.mem_filter.mp hi).2
    obtain ⟨e0, e1⟩ := drop_rank4_axes12_val h i
    rw [hd] at e0 e1
    congr 1
    funext g
    match g with
    | ⟨0, _⟩ => exact (Fin.ext e0).symm
    | ⟨1, _⟩ => rfl
    | ⟨2, _⟩ => rfl
    | ⟨3, _⟩ => exact (Fin.ext e1).symm

end Cert.Lib.SumTwoAxes
-- ==== Proof.KernelTail.lean ====
/-
  The kernel program's host operations after the call, at the exact instance.

  From the block-sum array B = 'blockSums x' the eighteen operations form three levels and join them:
    level 4: B / 256, reshaped to [32, 8192];
    level 2: B reshaped to [32, 2, 2, 2, 2, 512] (bin (p, q), member (a, d) is block (2p + a, 2q + d)), summed over the
             two member axes from zero, / 1024, reshaped to [32, 2048];
    level 1: B summed over both block axes from zero, / 4096;
  then concatenated along the feature axis as (level 1, level 2, level 4) and given two unit axes ('tailFn').
  B at (b, i, j, ch) is the window sum of side 16 at (16 i, 16 j) ('blockSums_win'). Four such windows in a 2-by-2
  group tile the window of side 32 at (32 p, 32 q), and all sixteen tile the whole 64-by-64 image ('win_split'), so
  each level at a bin is the bin's window sum over the bin's constant ('level4_apply', 'level2_apply',
  'level1_apply'): the same values the reference's levels have.
-/
import proofs.«122178_j50457275793429_1_alg».proof.Proof.KernelIdealFrame
import proofs.«122178_j50457275793429_1_alg».proof.Proof.KernelArray
import proofs.«122178_j50457275793429_1_alg».proof.Proof.PoolSpec
import proofs.«122178_j50457275793429_1_alg».proof.Proof.LibSumTwoAxes
import Idealize.ShloMosaic.Lib.ValueIdx
import Idealize.ShloMosaic.Lib.ValueIdxRank6
import Idealize.ShloMosaic.Lib.IdealHost
import Idealize.ShloMosaic.Lib.Pipeline.Value
import Idealize.ShloMosaic.Lib.StableHlo.Run
import Idealize.ShloMosaic.PureOps.Ideal.Laws

set_option maxRecDepth 16384

noncomputable section

namespace Cert.KernelIdeal.Tail

open Idealize.ShloMosaic Idealize.ShloMosaic.TcCoe Idealize.ShloMosaic.ValueIdx Idealize.ShloMosaic.StableHlo Idealize.SL.Sem
open Cert.KernelIdeal Cert.KernelIdeal.Gen Cert.KernelIdeal.Fr Cert.KernelIdeal.Block Cert.KernelIdeal.Arr
open Cert.Pool Cert.Lib.SumTwoAxes

variable (m : (ℓ : Loc nD τ sig) → Buf (Elt Ideal) ℓ)

/-! ## The operations' term -/

/-- Level 4 before its reshape: the block sums over 256. -/
def lvl4 (B : (⟨S32x4x4x512, .f32⟩ : BufTy).Contents (Elt Ideal)) : (⟨S32x4x4x512, .f32⟩ : BufTy).Contents (Elt Ideal) :=
  Host.divf (F := Ideal) B (broadcastInDim S32x4x4x512 ![] bcast_S_S32x4x4x512 (constant (F := Ideal) S_ .f32 0x43800000#32))

/-- Level 2 before its reshape: the 2-by-2 groups of block sums, added from zero, over 1024. -/
def lvl2 (B : (⟨S32x4x4x512, .f32⟩ : BufTy).Contents (Elt Ideal)) : (⟨S32x2x2x512, .f32⟩ : BufTy).Contents (Elt Ideal) :=
  Host.divf (F := Ideal)
    (Host.reduceAdd (F := Ideal) (shapeCast S32x2x2x2x2x512 B shapeCasts_S32x4x4x512_S32x2x2x2x2x512)
      (constant (F := Ideal) S_ .f32 0x00000000#32) reducesTo_S32x2x2x2x2x512_S32x2x2x512_d2_4 h_S_)
    (broadcastInDim S32x2x2x512 ![] bcast_S_S32x2x2x512 (constant (F := Ideal) S_ .f32 0x44800000#32))

/-- Level 1: all sixteen block sums, added from zero, over 4096. -/
def lvl1 (B : (⟨S32x4x4x512, .f32⟩ : BufTy).Contents (Elt Ideal)) : (⟨S32x512, .f32⟩ : BufTy).Contents (Elt Ideal) :=
  Host.divf (F := Ideal)
    (Host.reduceAdd (F := Ideal) B (constant (F := Ideal) S_ .f32 0x00000000#32) reducesTo_S32x4x4x512_S32x512_d1_2 h_S_)
    (broadcastInDim S32x512 ![] bcast_S_S32x512 (constant (F := Ideal) S_ .f32 0x45800000#32))

/-- The result of @main from three arrays of the levels' shapes: concatenated along the feature axis, then two unit
    axes inserted. -/
def joined (l1 : (⟨S32x512, .f32⟩ : BufTy).Contents (Elt Ideal)) (l2 : (⟨S32x2048, .f32⟩ : BufTy).Contents (Elt Ideal))
    (l4 : (⟨S32x8192, .f32⟩ : BufTy).Contents (Elt Ideal)) : (⟨S32x1x1x10752, .f32⟩ : BufTy).Contents (Elt Ideal) :=
  broadcastInDim S32x1x1x10752 ![0, 3] bcast_S32x10752_S32x1x1x10752_0_3
    (concatenate S32x10752 1 [⟨S32x512, l1⟩, ⟨S32x2048, l2⟩, ⟨S32x8192, l4⟩] concatenates_S32x512_S32x2048_S32x8192_S32x10752_d1)

/-- The result of @main from the block-sum array. -/
def tailFn (B : (⟨S32x4x4x512, .f32⟩ : BufTy).Contents (Elt Ideal)) : (⟨S32x1x1x10752, .f32⟩ : BufTy).Contents (Elt Ideal) :=
  joined (lvl1 B) (shapeCast S32x2048 (lvl2 B) shapeCasts_S32x2x2x512_S32x2048) (shapeCast S32x8192 (lvl4 B) shapeCasts_S32x4x4x512_S32x8192)

/-- After the run the result buffer holds 'tailFn' of the block sums of the argument. -/
theorem tail_result (c : Dev nD) :
    Pipeline.afterTail₀ cfgs (dats (F := Ideal) m) 0 (V0 m) [hostOps1] c main_v13 = tailFn (blockSums (V m c main_arg0)) := by
  have hB : Pipeline.withArrays (cfgs 0).spec c (V0 m c) (fun w => (dats (F := Ideal) m 0 c).arrAt w (cfgs 0).N) (Proc.devRef .tc main_v0)
      = blockSums (V m c main_arg0) :=
    (Pipeline.withArrays_arr spec0 launch0.win.arr_inj c _ _ 1).trans (Arr.final m c)
  unfold Pipeline.afterTail₀
  show StableHlo.after hostOps1 _ (Proc.devRef .tc main_v13) = _
  -- one operation at a time from the last; at the concatenate the three operands stand as 'fun k => (the contents
  -- at the k-th reference)' applied to 0, 1, 2
  after_results
  -- name the three references, so that each operand's contents can be read on
  dsimp only [Matrix.cons_val]
  repeat (first
    | rw [nullary_result] | rw [unary_result] | rw [binary_result] | rw [reshape_result]
    | (rw [nullary_result_ne]; rotate_left; decide)
    | (rw [unary_result_ne]; rotate_left; decide)
    | (rw [binary_result_ne]; rotate_left; decide)
    | (rw [reshape_result_ne]; rotate_left; decide))
  rw [hB]
  rfl

/-! ## The block sums as window sums -/

/-- The block sum at (b, i, j, ch) is the window sum of side 16 at (16 i, 16 j). -/
theorem blockSums_win (x0 : Vec Ideal S32x64x64x512 .f32) (b : Fin 32) (i j : Fin 4) (ch : Fin 512) :
    (blockSums x0 (ix4 b i j ch) : EReal) = win x0 16 b (16 * i) (16 * j) ch := by
  unfold blockSums win
  rw [Finset.sum_comm, Finset.sum_range]
  refine Finset.sum_congr rfl fun h _ => ?_
  rw [Finset.sum_range]
  refine Finset.sum_congr rfl fun w _ => ?_
  exact (ext_eq x0 b (at16 i h) (at16 j w) ch).symm

/-! ## The levels at a bin -/

/-- Level 4 at (b, i, j, ch). -/
theorem level4_apply (x0 : Vec Ideal S32x64x64x512 .f32) (b : Fin 32) (i j : Fin 4) (ch : Fin 512) :
    lvl4 (blockSums x0) (ix4 b i j ch)
      = FloatOps.hostDivf (F := Ideal) (φ := .f32) (win x0 16 b (16 * i) (16 * j) ch) (FloatOps.ofBits (F := Ideal) .f32 0x43800000#32) := by
  show FloatOps.hostDivf (F := Ideal) (φ := .f32) (blockSums x0 (ix4 b i j ch))
      (broadcastInDim S32x4x4x512 ![] bcast_S_S32x4x4x512 (constant (F := Ideal) S_ .f32 0x43800000#32) (ix4 b i j ch)) = _
  rw [broadcastInDim_scalar_apply, blockSums_win]
  rfl

/-- Level 2 at bin (b, p, q, ch): the four blocks (2p + a, 2q + d) tile the window of side 32 at (32 p, 32 q). -/
theorem level2_apply (x0 : Vec Ideal S32x64x64x512 .f32) (b : Fin 32) (p q : Fin 2) (ch : Fin 512) :
    lvl2 (blockSums x0) (ix4 b p q ch)
      = FloatOps.hostDivf (F := Ideal) (φ := .f32) (win x0 32 b (32 * p) (32 * q) ch) (FloatOps.ofBits (F := Ideal) .f32 0x44800000#32) := by
  show FloatOps.hostDivf (F := Ideal) (φ := .f32)
      (Host.reduceAdd (F := Ideal) (shapeCast S32x2x2x2x2x512 (blockSums x0) shapeCasts_S32x4x4x512_S32x2x2x2x2x512)
        (constant (F := Ideal) S_ .f32 0x00000000#32) reducesTo_S32x2x2x2x2x512_S32x2x2x512_d2_4 h_S_ (ix4 b p q ch))
      (broadcastInDim S32x2x2x512 ![] bcast_S_S32x2x2x512 (constant (F := Ideal) S_ .f32 0x44800000#32) (ix4 b p q ch)) = _
  rw [broadcastInDim_scalar_apply, hostReduceAdd_apply, hostReduceAdd_rank6_axes24]
  have hz : (constant (F := Ideal) S_ .f32 0x00000000#32 (Shape.Idx.first h_S_) : EReal) = 0 := Ideal.ofBits_zero_f32
  rw [hz, zero_add]
  have hsum : (∑ a : Fin 2, ∑ d : Fin 2, shapeCast S32x2x2x2x2x512 (blockSums x0) shapeCasts_S32x4x4x512_S32x2x2x2x2x512 (ix6 b p a q d ch) : EReal)
      = win x0 32 b (32 * p) (32 * q) ch := by
    rw [← win_split x0 2 16 b (32 * p) (32 * q) ch, Finset.sum_range]
    refine Finset.sum_congr rfl fun a _ => ?_
    rw [Finset.sum_range]
    refine Finset.sum_congr rfl fun d _ => ?_
    have ha := a.isLt
    have hd := d.isLt
    have hp := p.isLt
    have hq := q.isLt
    rw [shapeCast_apply (blockSums x0) shapeCasts_S32x4x4x512_S32x2x2x2x2x512 (ix6 b p a q d ch)
      (ix4 b (⟨2 * p.val + a.val, by omega⟩ : Fin 4) (⟨2 * q.val + d.val, by omega⟩ : Fin 4) ch)
      (by rw [Shape.rowMajor_val_four, Shape.rowMajor_val_six]
          show ((b.val * 4 + (2 * p.val + a.val)) * 4 + (2 * q.val + d.val)) * 512 + ch.val
            = ((((b.val * 2 + p.val) * 2 + a.val) * 2 + q.val) * 2 + d.val) * 512 + ch.val
          omega)]
    rw [blockSums_win]
    show win x0 16 b (16 * (2 * p.val + a.val)) (16 * (2 * q.val + d.val)) ch = win x0 16 b (32 * p.val + 16 * a.val) (32 * q.val + 16 * d.val) ch
    rw [show 16 * (2 * p.val + a.val) = 32 * p.val + 16 * a.val by omega, show 16 * (2 * q.val + d.val) = 32 * q.val + 16 * d.val by omega]
  exact congrArg (fun s => FloatOps.hostDivf (F := Ideal) (φ := .f32) s (FloatOps.ofBits (F := Ideal) .f32 0x44800000#32)) hsum

/-- Level 1 at (b, ch): the sixteen blocks tile the whole image. -/
theorem level1_apply (x0 : Vec Ideal S32x64x64x512 .f32) (b : Fin 32) (ch : Fin 512) :
    lvl1 (blockSums x0) (ix2 b ch)
      = FloatOps.hostDivf (F := Ideal) (φ := .f32) (win x0 64 b 0 0 ch) (FloatOps.ofBits (F := Ideal) .f32 0x45800000#32) := by
  show FloatOps.hostDivf (F := Ideal) (φ := .f32)
      (Host.reduceAdd (F := Ideal) (blockSums x0) (constant (F := Ideal) S_ .f32 0x00000000#32) reducesTo_S32x4x4x512_S32x512_d1_2 h_S_ (ix2 b ch))
      (broadcastInDim S32x512 ![] bcast_S_S32x512 (constant (F := Ideal) S_ .f32 0x45800000#32) (ix2 b ch)) = _
  rw [broadcastInDim_scalar_apply, hostReduceAdd_apply, hostReduceAdd_rank4_axes12]
  have hz : (constant (F := Ideal) S_ .f32 0x00000000#32 (Shape.Idx.first h_S_) : EReal) = 0 := Ideal.ofBits_zero_f32
  rw [hz, zero_add]
  have hsum : (∑ a : Fin 4, ∑ d : Fin 4, blockSums x0 (ix4 b a d ch) : EReal) = win x0 64 b 0 0 ch := by
    rw [← win_split x0 4 16 b 0 0 ch, Finset.sum_range]
    refine Finset.sum_congr rfl fun a _ => ?_
    rw [Finset.sum_range]
    refine Finset.sum_congr rfl fun d _ => ?_
    rw [blockSums_win, Nat.zero_add, Nat.zero_add]
  exact congrArg (fun s => FloatOps.hostDivf (F := Ideal) (φ := .f32) s (FloatOps.ofBits (F := Ideal) .f32 0x45800000#32)) hsum

end Cert.KernelIdeal.Tail

end
-- ==== Proof.RefLevels.lean ====
/-
  The reference's three pyramid levels, read at an index as window sums.

  For s = 1, 2, 4 the reference reshapes the [32, 64, 64, 512] argument to [32, s, n, s, n, 512] with n = 64 / s, sums
  over the two axes of extent n from the initial value zero, and divides by n * n. The entry (b, p, a, q, d, ch) of
  the reshaped array is the argument at (b, n p + a, n q + d, ch): the two arrays list the same entries in the same
  row-major order. So the sum over a and d is the window sum of side n at (n p, n q), for every s and n with
  s n = 64 ('reshape_window_sum'), and each level at a bin is that window sum over the bin's constant.
-/
import proofs.«122178_j50457275793429_1_alg».proof.Proof.Gen.ReferenceIdeal.Read
import proofs.«122178_j50457275793429_1_alg».proof.Proof.PoolSpec
import proofs.«122178_j50457275793429_1_alg».proof.Proof.LibSumTwoAxes
import Idealize.ShloMosaic.Lib.ValueIdxRank6
import Idealize.ShloMosaic.Lib.IdealHost
import Idealize.ShloMosaic.Lib.Pipeline.Value
import Idealize.ShloMosaic.PureOps.Ideal.Laws
import Mathlib.Tactic.Ring

noncomputable section

namespace Cert.ReferenceIdeal.Levels

open Idealize.ShloMosaic Idealize.ShloMosaic.ValueIdx Idealize.ShloMosaic.StableHlo
open Cert.ReferenceIdeal Cert.ReferenceIdeal.Gen Cert.ReferenceIdeal.Read Cert.Pool Cert.Lib.SumTwoAxes

/-- The initial value of every sum in this program, the f32 word zero, is the extended real 0. -/
theorem init_zero : (FloatOps.ofBits (F := Ideal) .f32 0x00000000#32 : EReal) = 0 := Ideal.ofBits_zero_f32

/-- A row (or column) n p + a of a bin lies inside the 64 rows when p < s, a < n and s n = 64. -/
theorem row_lt {s n : ℕ} (hsn : s * n = 64) (p : Fin s) (a : Fin n) : n * p.val + a.val < 64 := by
  have h1 : n * (p.val + 1) ≤ n * s := Nat.mul_le_mul_left n p.isLt
  rw [Nat.mul_comm n s, hsn, Nat.mul_succ] at h1
  have := a.isLt
  omega

/-- The argument reshaped to [32, s, n, s, n, 512] (s n = 64) and summed over its two axes of extent n: the window
    sum of side n at (n p, n q). -/
theorem reshape_window_sum (s n : ℕ) (hsn : s * n = 64) (hc : SIn.ShapeCasts ⟨6, ![32, s, n, s, n, 512]⟩)
    (x0 : SIn.Idx → EReal) (b : Fin 32) (p q : Fin s) (ch : Fin 512) :
    ∑ a : Fin n, ∑ d : Fin n, shapeCast ⟨6, ![32, s, n, s, n, 512]⟩ x0 hc (ix6 b p a q d ch)
      = win x0 n b (n * p) (n * q) ch := by
  unfold win
  rw [Finset.sum_range]
  refine Finset.sum_congr rfl fun a _ => ?_
  rw [Finset.sum_range]
  refine Finset.sum_congr rfl fun d _ => ?_
  rw [show ext x0 b (n * p + a) (n * q + d) ch = x0 (ix4 b ⟨n * p + a, row_lt hsn p a⟩ ⟨n * q + d, row_lt hsn q d⟩ ch)
    from ext_eq x0 b ⟨_, row_lt hsn p a⟩ ⟨_, row_lt hsn q d⟩ ch]
  refine shapeCast_apply x0 hc _ _ ?_
  rw [Shape.rowMajor_val_four, Shape.rowMajor_val_six]
  show ((b.val * 64 + (n * p.val + a.val)) * 64 + (n * q.val + d.val)) * 512 + ch.val
    = ((((b.val * s + p.val) * n + a.val) * s + q.val) * n + d.val) * 512 + ch.val
  rw [← hsn]
  ring

/-- Level s = 4 before its final reshape: at bin (b, p, q, ch) the window sum of side 16 at (16 p, 16 q) over 256. -/
theorem level4_apply (x0 : SIn.Idx → EReal) (j : S32x4x4x512.Idx) :
    val_main_v13 (F := Ideal) x0 j
      = FloatOps.hostDivf (F := Ideal) (φ := .f32) (win x0 16 (j 0) (16 * (j 1)) (16 * (j 2)) (j 3)) (FloatOps.ofBits (F := Ideal) .f32 0x43800000#32) := by
  rw [val_main_v13_apply, val_main_v12_apply, val_main_cst_4_apply]
  congr 1
  unfold val_main_v11
  rw [hostReduceAdd_apply, hostReduceAdd_rank6_axes24, val_main_cst_3_apply, init_zero, zero_add]
  exact reshape_window_sum 4 16 rfl _ x0 (j 0) (j 1) (j 2) (j 3)

/-- Level s = 2 before its final reshape: the window sum of side 32 at (32 p, 32 q) over 1024. -/
theorem level2_apply (x0 : SIn.Idx → EReal) (j : S32x2x2x512.Idx) :
    val_main_v8 (F := Ideal) x0 j
      = FloatOps.hostDivf (F := Ideal) (φ := .f32) (win x0 32 (j 0) (32 * (j 1)) (32 * (j 2)) (j 3)) (FloatOps.ofBits (F := Ideal) .f32 0x44800000#32) := by
  rw [val_main_v8_apply, val_main_v7_apply, val_main_cst_2_apply]
  congr 1
  unfold val_main_v6
  rw [hostReduceAdd_apply, hostReduceAdd_rank6_axes24, val_main_cst_1_apply, init_zero, zero_add]
  exact reshape_window_sum 2 32 rfl _ x0 (j 0) (j 1) (j 2) (j 3)

/-- Level s = 1 after its reshape to [32, 512]: at (b, ch) the sum over the whole image over 4096. -/
theorem level1_apply (x0 : SIn.Idx → EReal) (i : S32x512.Idx) :
    val_main_v4 (F := Ideal) x0 i
      = FloatOps.hostDivf (F := Ideal) (φ := .f32) (win x0 64 (i 0) 0 0 (i 1)) (FloatOps.ofBits (F := Ideal) .f32 0x45800000#32) := by
  rw [val_main_v4_apply, val_main_v3_apply, val_main_v2_apply, val_main_cst_0_apply]
  congr 1
  unfold val_main_v1
  rw [hostReduceAdd_apply, hostReduceAdd_rank6_axes24, val_main_cst_apply, init_zero, zero_add]
  have h0 := idx2_lt0 i
  have h1 := idx2_lt1 i
  refine (reshape_window_sum 1 64 rfl _ x0 (idx_main_v4 i 0) (idx_main_v4 i 1) (idx_main_v4 i 2) (idx_main_v4 i 3)).trans ?_
  show win x0 64 (((i 0).val * 512 + (i 1).val) / 512) (64 * 0) (64 * 0) (((i 0).val * 512 + (i 1).val) % 512)
    = win x0 64 (i 0) 0 0 (i 1)
  rw [show ((i 0).val * 512 + (i 1).val) / 512 = (i 0).val by omega,
    show ((i 0).val * 512 + (i 1).val) % 512 = (i 1).val by omega]

end Cert.ReferenceIdeal.Levels

end
-- ==== Proof.lean ====
/-
  Spatial pyramid pooling: a pipelined kernel of block sums with host arithmetic after it, against the plain reference.

  Over a [32, 64, 64, 512] array x, level s of the pyramid (s = 1, 2, 4) averages x over each of the s * s square bins of
  side 64 / s, and the result lists level 1, level 2, level 4 along the feature axis. The reference sums each bin
  directly: reshape to [32, s, 64/s, s, 64/s, 512], sum the two inner axes from zero, divide by the bin's size. The
  kernel sums only the sixteen finest bins (side 16) on the chip, sixteen stores per grid point over rows 2t, 2t + 1,
  and the host then adds those sums in 2-by-2 groups for level 2 and all together for level 1, dividing by 1024 and
  4096 (and by 256 for level 4).

  At the extended reals both are the same function because a square window of side k * n is tiled by k * k windows of
  side n, and addition there is commutative and associative; no entry needs to be finite, so the precondition is
  never opened. Every level at a bin is the bin's window sum over the bin's constant on both sides
  ('Levels.level*_apply' for the reference, 'Tail.level*_apply' for the kernel), and the two programs join the three
  levels by the same concatenation and the same broadcast ('result_eq').

  The two kernel programs' frames are proved in their own modules at any float instance; the reference has no kernel
  and its frame is its run with the result dropped. The idealization rewrote nothing, so there is nothing to preserve.
-/
import proofs.«122178_j50457275793429_1_alg».proof.Defs
import proofs.«122178_j50457275793429_1_alg».proof.Proof.Gen.Kernel
import proofs.«122178_j50457275793429_1_alg».proof.Proof.Gen.KernelIdeal
import proofs.«122178_j50457275793429_1_alg».proof.Proof.Gen.ReferenceIdeal
import proofs.«122178_j50457275793429_1_alg».proof.Proof.Gen.Pre_finite_inputs
import proofs.«122178_j50457275793429_1_alg».proof.Proof.Gen.ReferenceIdeal.Run
import proofs.«122178_j50457275793429_1_alg».proof.Proof.Gen.ReferenceIdeal.Read
import proofs.«122178_j50457275793429_1_alg».proof.Proof.KernelFrame
import proofs.«122178_j50457275793429_1_alg».proof.Proof.KernelIdealFrame
import proofs.«122178_j50457275793429_1_alg».proof.Proof.KernelArray
import proofs.«122178_j50457275793429_1_alg».proof.Proof.KernelTail
import proofs.«122178_j50457275793429_1_alg».proof.Proof.RefLevels
import Idealize.ShloMosaic.Lib.ValueIdx
import Idealize.ShloMosaic.Adequacy
import Idealize.ShloMosaic.Init

noncomputable section

namespace Cert.Proof

open Idealize.ShloMosaic Idealize.ShloMosaic.TcCoe Idealize.ShloMosaic.ValueIdx Idealize.SL.Sem

/-- The reference's result, as a function of the argument, is the kernel program's host term of the block sums:
    level by level the two are the same window sums over the same constants, and the joining operations are the same. -/
theorem result_eq (x0 : Vec Ideal Cert.KernelIdeal.S32x64x64x512 .f32) :
    Cert.ReferenceIdeal.Read.val_main_v16 (F := Ideal) x0
      = Cert.KernelIdeal.Tail.tailFn (Cert.KernelIdeal.Arr.blockSums x0) := by
  have e1 : Cert.ReferenceIdeal.Read.val_main_v4 (F := Ideal) x0
      = Cert.KernelIdeal.Tail.lvl1 (Cert.KernelIdeal.Arr.blockSums x0) := funext fun i => by
    obtain ⟨b, ch, rfl⟩ : ∃ (b : Fin 32) (ch : Fin 512), i = ix2 b ch := ⟨i 0, i 1, eq_ix2 i⟩
    exact (Cert.ReferenceIdeal.Levels.level1_apply x0 (ix2 b ch)).trans (Cert.KernelIdeal.Tail.level1_apply x0 b ch).symm
  have e2 : Cert.ReferenceIdeal.Read.val_main_v8 (F := Ideal) x0
      = Cert.KernelIdeal.Tail.lvl2 (Cert.KernelIdeal.Arr.blockSums x0) := funext fun j => by
    obtain ⟨b, p, q, ch, rfl⟩ : ∃ (b : Fin 32) (p q : Fin 2) (ch : Fin 512), j = ix4 b p q ch := ⟨j 0, j 1, j 2, j 3, eq_ix4 j⟩
    exact (Cert.ReferenceIdeal.Levels.level2_apply x0 (ix4 b p q ch)).trans (Cert.KernelIdeal.Tail.level2_apply x0 b p q ch).symm
  have e4 : Cert.ReferenceIdeal.Read.val_main_v13 (F := Ideal) x0
      = Cert.KernelIdeal.Tail.lvl4 (Cert.KernelIdeal.Arr.blockSums x0) := funext fun j => by
    obtain ⟨b, i, k, ch, rfl⟩ : ∃ (b : Fin 32) (i k : Fin 4) (ch : Fin 512), j = ix4 b i k ch := ⟨j 0, j 1, j 2, j 3, eq_ix4 j⟩
    exact (Cert.ReferenceIdeal.Levels.level4_apply x0 (ix4 b i k ch)).trans (Cert.KernelIdeal.Tail.level4_apply x0 b i k ch).symm
  unfold Cert.ReferenceIdeal.Read.val_main_v16 Cert.ReferenceIdeal.Read.val_main_v15 Cert.ReferenceIdeal.Read.val_main_v14
    Cert.ReferenceIdeal.Read.val_main_v9 Cert.KernelIdeal.Tail.tailFn Cert.KernelIdeal.Tail.joined
  rw [e1, e2, e4]

theorem frame_kernel : Cert.frame_Kernel := fun m ρ _ => Cert.Kernel.Fr.frame (F := Bits) m ρ

theorem frame_kernelIdeal : Cert.frame_KernelIdeal := fun m ρ _ => Cert.KernelIdeal.Fr.frame (F := Ideal) m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the argument x, both programs end with the result buffer at 'tailFn (blockSums x)':
    the kernel's by its frame run (the block-sum array after the sixteen points, then the host operations), the
    reference's by its run and 'result_eq'. -/
theorem algebraic : Cert.algebraic_KernelIdeal_ReferenceIdeal := by
  intro m ρ m' ρ' _ hagree
  refine ⟨fun c => Cert.KernelIdeal.Tail.tailFn (Cert.KernelIdeal.Arr.blockSums
      (m ((c.tc : Thread Cert.KernelIdeal.nD Cert.KernelIdeal.τ).loc Cert.KernelIdeal.main_arg0))), ?_, ?_⟩
  · refine (θ_run Cert.KernelIdeal.defs _ _).mono (fun r h c => ⟨?_,
      Cert.KernelIdeal.Fr.tail_arg m (Cert.KernelIdeal.Fr.dats m) (Cert.KernelIdeal.Fr.A_eq m) c r h⟩)
      (Cert.KernelIdeal.Fr.run_main (F := Ideal) m ρ)
    exact ((h c).2 Cert.KernelIdeal.main_v13 (Pipeline.mem_restRefs_of Cert.KernelIdeal.main_v13 (by decide) (by decide))).trans
      (Cert.KernelIdeal.Tail.tail_result m c)
  · refine (θ_run Cert.ReferenceIdeal.defs _ _).mono (fun r h c => ⟨?_, (h c).2⟩)
      (Cert.ReferenceIdeal.Value.run (F := Ideal) m' ρ')
    refine ((h c).1.trans (Cert.ReferenceIdeal.Read.val_main_v16_eq _)).trans ?_
    rw [hagree c]
    exact result_eq _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
